-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel

variable [Facts]

def fn {F : FTy → Type} [FloatOps F] (main_arg0 : FVec F S4096x32000 .f32) (main_arg1 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  main_v3
-- ==== Kernel.lean ====
abbrev S4096x32000 : Shape := ⟨2, ![4096, 32000]⟩
abbrev S4096 : Shape := ⟨1, ![4096]⟩
abbrev S4096x1 : Shape := ⟨2, ![4096, 1]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S256x6400 : Shape := ⟨2, ![256, 6400]⟩
abbrev S256x1 : Shape := ⟨2, ![256, 1]⟩
abbrev S256 : Shape := ⟨1, ![256]⟩

abbrev nBuf : Space → Nat
  | .hbm => 35
  | .vmem => 11
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x1, .i32⟩
  | .hbm, ⟨3, _⟩ => ⟨S_, .i32⟩
  | .hbm, ⟨4, _⟩ => ⟨S4096x1, .i32⟩
  | .hbm, ⟨5, _⟩ => ⟨S4096x1, .i1⟩
  | .hbm, ⟨6, _⟩ => ⟨S_, .i32⟩
  | .hbm, ⟨7, _⟩ => ⟨S4096x1, .i32⟩
  | .hbm, ⟨8, _⟩ => ⟨S4096x1, .i32⟩
  | .hbm, ⟨9, _⟩ => ⟨S4096x1, .i32⟩
  | .hbm, ⟨10, _⟩ => ⟨S4096x1x1, .i32⟩
  | .hbm, ⟨11, _⟩ => ⟨S1, .i32⟩
  | .hbm, ⟨12, _⟩ => ⟨S_, .i32⟩
  | .hbm, ⟨13, _⟩ => ⟨S4096x1x1, .i32⟩
  | .hbm, ⟨14, _⟩ => ⟨S4096x1x1, .i1⟩
  | .hbm, ⟨15, _⟩ => ⟨S1x1x1, .i32⟩
  | .hbm, ⟨16, _⟩ => ⟨S4096x1x1, .i32⟩
  | .hbm, ⟨17, _⟩ => ⟨S4096x1x1, .i1⟩
  | .hbm, ⟨18, _⟩ => ⟨S4096x1x1, .i1⟩
  | .hbm, ⟨19, _⟩ => ⟨S_, .i1⟩
  | .hbm, ⟨20, _⟩ => ⟨S4096x1, .i1⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S256x6400, .f32⟩
  | .local _ .vmem, ⟨1, _⟩ => ⟨S256x6400, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2_0 : Ref sig .tc := ⟨.hbm, 25, rfl⟩
abbrev main_v2_1 : Ref sig .tc := ⟨.hbm, 26, rfl⟩
abbrev main_cst : Ref sig .tc := ⟨.hbm, 27, rfl⟩
abbrev main_v3 : Ref sig .tc := ⟨.hbm, 28, rfl⟩
abbrev main_cst_0 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_cst_2 : Ref sig .tc := ⟨.hbm, 33, rfl⟩
abbrev main_v6 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c4_i32 : BitVec 32 := 4#32
  let v34 : BitVec 1 := Scalar.cmpi .eq arg1 c4_i32
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x6400_S256x6400_0_0 : ∀ a, (![0, 0] : Fin 2 → Nat) a + S256x6400.size a ≤ S256x6400.size a
  h_S256x6400 : 0 < S256x6400.numel
  reduces_S256x6400_S256 : S256x6400.Reduces [1] S256
  shapeCasts_S256_S256x1 : S256.ShapeCasts S256x1
  broadcasts_S256x1_S256x6400 : S256x1.Broadcasts S256x6400
  reducesTo_S4096x1_S_d0_1 : S4096x1.ReducesTo [0, 1] S_
  gather_S4096x32000_S4096x1x1_S4096x1_n_1_0_0_1_2_11_wf : GatherDims.WF S4096x32000 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x6400.size a ≤ S4096x32000.size a
  hwx0_0 : ∀ i : grid0.Coords, EltTy.bits .f32 = 32 ∨ (Rect.block (s := S4096x32000) S256x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

abbrev win0_0 : Pipeline.Window sig grid0 :=
  Pipeline.Window.ofSpec (Memref.whole main_arg0) S256x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 78
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x32000, .f32⟩
  | .hbm, ⟨9, _⟩ => ⟨S4096x32000, .f32⟩
  | .hbm, ⟨10, _⟩ => ⟨S4096x32000, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x32000, .f32⟩
  | .hbm, ⟨16, _⟩ => ⟨S4096x32000, .f32⟩
  | .hbm, ⟨17, _⟩ => ⟨S4096x1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S_, .i32⟩
  | .hbm, ⟨22, _⟩ => ⟨S4096x1, .i32⟩
  | .hbm, ⟨23, _⟩ => ⟨S4096x1, .i32⟩
  | .hbm, ⟨24, _⟩ => ⟨S4096x1, .i32⟩
  | .hbm, ⟨25, _⟩ => ⟨S4096x1x1, .i32⟩
  | .hbm, ⟨26, _⟩ => ⟨S1, .i32⟩
  | .hbm, ⟨27, _⟩ => ⟨S_, .i32⟩
  | .hbm, ⟨28, _⟩ => ⟨S4096x1x1, .i32⟩
  | .hbm, ⟨29, _⟩ => ⟨S4096x1x1, .i1⟩
  | .hbm, ⟨30, _⟩ => ⟨S1x1x1, .i32⟩
  | .hbm, ⟨31, _⟩ => ⟨S4096x1x1, .i32⟩
  | .hbm, ⟨32, _⟩ => ⟨S4096x1x1, .i1⟩
  | .hbm, ⟨33, _⟩ => ⟨S4096x1x1, .i1⟩
  | .hbm, ⟨34, _⟩ => ⟨S_, .i1⟩
  | .hbm, ⟨35, _⟩ => ⟨S4096x1, .i1⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096x32000, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096x32000, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S4096, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_cst_0 : Ref sig .tc := ⟨.hbm, 44, rfl⟩
abbrev main_v6 : Ref sig .tc := ⟨.hbm, 45, rfl⟩
abbrev main_v7 : Ref sig .tc := ⟨.hbm, 46, rfl⟩
abbrev main_cst_1 : Ref sig .tc := ⟨.hbm, 47, rfl⟩
abbrev main_v8 : Ref sig .tc := ⟨.hbm, 48, rfl⟩
abbrev main_cst_2 : Ref sig .tc := ⟨.hbm, 49, rfl⟩
abbrev main_v9 : Ref sig .tc := ⟨.hbm, 50, rfl⟩
abbrev main_v10 : Ref sig .tc := ⟨.hbm, 51, rfl⟩
abbrev main_cst_3 : Ref sig .tc := ⟨.hbm, 52, rfl⟩
abbrev main_v11 : Ref sig .tc := ⟨.hbm, 53, rfl⟩
abbrev main_v12 : Ref sig .tc := ⟨.hbm, 54, rfl⟩
abbrev main_cst_4 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_cst_5 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_cst_6 : Ref sig .tc := ⟨.hbm, 65, rfl⟩
abbrev main_cst_7 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_cst_8 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_cst_9 : Ref sig .tc := ⟨.hbm, 74, rfl⟩
abbrev main_v27 : Ref sig .tc := ⟨.hbm, 75, rfl⟩
abbrev main_cst_10 : Ref sig .tc := ⟨.hbm, 76, rfl⟩
abbrev main_v28 : Ref sig .tc := ⟨.hbm, 77, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  gather_S4096x32000_S4096x1x1_S4096x1_n_1_0_0_1_2_11_wf : GatherDims.WF S4096x32000 S4096x1x1 S4096x1 [] [1] [0] [1] [0] 2 ![1, 1]

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.KPieces.lean ====
/-
  What one run of the kernel body leaves behind, case by case, as plain functions of what it read.

  The body keeps three 256 × 1 columns between grid points: the running maximum, the running sum of
  exp (x − max) and the running sum of its square. At a row block's first column block it resets them
  (to the named −∞ stand-in, 0 and 0) and then updates them; at the others it only updates them; at the last it
  also forms the two results from the updated columns and the row block's label logits. Each lemma below says
  that a column (or a result block) after such a run is the corresponding expression of the body's arithmetic
  — the generated payload terms — of the logits block and of the columns as the run found them.
-/
import proofs.«431235_j43164421325263_3_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem

namespace Cert.KernelIdeal.Pieces
open Cert.KernelIdeal Cert.KernelIdeal.Gen

variable {F : FTy → Type} [FloatOps F] [Named F]

theorem hz : (![0, 0] : Fin 2 → Nat) = fun _ => 0 := funext fun a => by fin_cases a <;> rfl

/-! ## A row block's first column block: reset, then update -/

section First
variable (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : cond0_0 i) (hc1 : ¬cond0_1 i)
    (x0 : Vec F S256x6400 .f32) (x1 : Vec F S256x1 .f32)

/-- The running maximum after the first column block: the update of the reset value by the block. -/
theorem first_max : sout0_A_0 c i arg2 harg2 arg3 harg3 arg4 harg4 arg5 harg5 arg6 harg6 arg7 harg7 arg8 harg8 hc0 hc1 x0 x1 = k0_pay11 x0 (k0_pay3 (F := F)) := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S256x1) hz]
  simp only [View.readAt_eq_ld, harg2.read_unread, harg3.read_unread, harg6.read_unread, harg7.read_unread, harg8.read_unread,
    View.ld_unit_zero (S := S256x1) hz, View.ld_unit_zero (S := S256x6400) hz, View.readCov_unit_zero (S := S256x1) _ hz]

/-- The running sum after the first column block: the update of the reset values by the block. -/
theorem first_sum : sout0_A_1 c i arg2 harg2 arg3 harg3 arg4 harg4 arg5 harg5 arg6 harg6 arg7 harg7 arg8 harg8 hc0 hc1 x0 x1 = k0_pay9 x0 (k0_pay3 (F := F)) (k0_pay4 (F := F)) := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S256x1) hz]
  simp only [View.readAt_eq_ld, harg2.read_unread, harg3.read_unread, harg6.read_unread, harg7.read_unread, harg8.read_unread,
    View.ld_unit_zero (S := S256x1) hz, View.ld_unit_zero (S := S256x6400) hz, View.readCov_unit_zero (S := S256x1) _ hz]

/-- The running sum of squares after the first column block: the update of the reset values by the block. -/
theorem first_sumsq : sout0_A_2 c i arg2 harg2 arg3 harg3 arg4 harg4 arg5 harg5 arg6 harg6 arg7 harg7 arg8 harg8 hc0 hc1 x0 x1 = k0_pay10 x0 (k0_pay3 (F := F)) (k0_pay5 (F := F)) := by
  unfold sout0_A_2
  rw [View.read_writes_eq_canon _ _ _ (scover0_A_2 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S256x1) hz]
  simp only [View.readAt_eq_ld, harg2.read_unread, harg3.read_unread, harg6.read_unread, harg7.read_unread, harg8.read_unread,
    View.ld_unit_zero (S := S256x1) hz, View.ld_unit_zero (S := S256x6400) hz, View.readCov_unit_zero (S := S256x1) _ hz]

end First

/-! ## A middle column block: update only -/

section Middle
variable (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬cond0_0 i) (hc1 : ¬cond0_1 i)
    (x0 : Vec F S256x6400 .f32) (x1 : Vec F S256x1 .f32) (xs0 : Vec F S256x1 .f32) (xs1 : Vec F S256x1 .f32) (xs2 : Vec F S256x1 .f32)

/-- The running maximum after a middle column block: the update of the carried maximum by the block. -/
theorem middle_max : sout0_B_0 c i arg2 harg2 arg3 harg3 arg4 harg4 arg5 harg5 arg6 harg6 arg7 harg7 arg8 harg8 hc0 hc1 x0 x1 xs0 xs1 xs2 = k0_pay11 x0 xs0 := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1 xs2)]
  unfold kernelRun0_B
  dsimp only
  sl_unfold_words
  rw [View.canon_unit_zero hz]
  simp only [View.readAt_eq_ld, harg2.read_unread, harg3.read_unread, harg6.read_unread, harg7.read_unread, harg8.read_unread,
    View.ld_unit_zero (S := S256x1) hz, View.ld_unit_zero (S := S256x6400) hz, View.readCov_unit_zero (S := S256x1) _ hz]

/-- The running sum after a middle column block. -/
theorem middle_sum : sout0_B_1 c i arg2 harg2 arg3 harg3 arg4 harg4 arg5 harg5 arg6 harg6 arg7 harg7 arg8 harg8 hc0 hc1 x0 x1 xs0 xs1 xs2 = k0_pay9 x0 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1 xs2)]
  unfold kernelRun0_B
  dsimp only
  sl_unfold_words
  rw [View.canon_unit_zero hz]
  simp only [View.readAt_eq_ld, harg2.read_unread, harg3.read_unread, harg6.read_unread, harg7.read_unread, harg8.read_unread,
    View.ld_unit_zero (S := S256x1) hz, View.ld_unit_zero (S := S256x6400) hz, View.readCov_unit_zero (S := S256x1) _ hz]

/-- The running sum of squares after a middle column block. -/
theorem middle_sumsq : sout0_B_2 c i arg2 harg2 arg3 harg3 arg4 harg4 arg5 harg5 arg6 harg6 arg7 harg7 arg8 harg8 hc0 hc1 x0 x1 xs0 xs1 xs2 = k0_pay10 x0 xs0 xs2 := by
  unfold sout0_B_2
  rw [View.read_writes_eq_canon _ _ _ (scover0_B_2 c i arg2 harg2 arg3 harg3 arg4 harg4 arg5 harg5 arg6 harg6 arg7 harg7 arg8 harg8 hc0 hc1 x0 x1 xs0 xs1 xs2)]
  unfold kernelRun0_B
  dsimp only
  sl_unfold_words
  rw [View.canon_unit_zero hz]
  simp only [View.readAt_eq_ld, harg2.read_unread, harg3.read_unread, harg6.read_unread, harg7.read_unread, harg8.read_unread,
    View.ld_unit_zero (S := S256x1) hz, View.ld_unit_zero (S := S256x6400) hz, View.readCov_unit_zero (S := S256x1) _ hz]

end Middle

/-! ## The last column block: update, then the two results -/

section Last
variable (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬cond0_0 i) (hc1 : cond0_1 i)
    (x0 : Vec F S256x6400 .f32) (x1 : Vec F S256x1 .f32) (xs0 : Vec F S256x1 .f32) (xs1 : Vec F S256x1 .f32) (xs2 : Vec F S256x1 .f32)

/-- The running maximum after the last column block. -/
theorem last_max : sout0_C_0 c i arg2 harg2 arg3 harg3 arg4 harg4 arg5 harg5 arg6 harg6 arg7 harg7 arg8 harg8 hc0 hc1 x0 x1 xs0 xs1 xs2 = k0_pay11 x0 xs0 := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz]
  simp only [View.readAt_eq_ld, harg2.read_unread, harg3.read_unread, harg6.read_unread, harg7.read_unread, harg8.read_unread,
    View.ld_unit_zero (S := S256x1) hz, View.ld_unit_zero (S := S256x6400) hz, View.readCov_unit_zero (S := S256x1) _ hz]

/-- The running sum after the last column block. -/
theorem last_sum : sout0_C_1 c i arg2 harg2 arg3 harg3 arg4 harg4 arg5 harg5 arg6 harg6 arg7 harg7 arg8 harg8 hc0 hc1 x0 x1 xs0 xs1 xs2 = k0_pay9 x0 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz]
  simp only [View.readAt_eq_ld, harg2.read_unread, harg3.read_unread, harg6.read_unread, harg7.read_unread, harg8.read_unread,
    View.ld_unit_zero (S := S256x1) hz, View.ld_unit_zero (S := S256x6400) hz, View.readCov_unit_zero (S := S256x1) _ hz]

/-- The running sum of squares after the last column block. -/
theorem last_sumsq : sout0_C_2 c i arg2 harg2 arg3 harg3 arg4 harg4 arg5 harg5 arg6 harg6 arg7 harg7 arg8 harg8 hc0 hc1 x0 x1 xs0 xs1 xs2 = k0_pay10 x0 xs0 xs2 := by
  unfold sout0_C_2
  rw [View.read_writes_eq_canon _ _ _ (scover0_C_2 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz]
  simp only [View.readAt_eq_ld, harg2.read_unread, harg3.read_unread, harg6.read_unread, harg7.read_unread, harg8.read_unread,
    View.ld_unit_zero (S := S256x1) hz, View.ld_unit_zero (S := S256x6400) hz, View.readCov_unit_zero (S := S256x1) _ hz]

/-- The first result block: (max + log sum) − label logit, of the columns as just updated. -/
theorem last_nll : out0_C_2 c i arg2 harg2 arg3 harg3 arg4 harg4 arg5 harg5 arg6 harg6 arg7 harg7 arg8 harg8 hc0 hc1 x0 x1 xs0 xs1 xs2 = k0_pay1 (k0_pay11 x0 xs0) (k0_pay9 x0 xs0 xs1) x1 := by
  unfold out0_C_2
  rw [View.read_writes_eq_canon _ _ _ (cover0_C_2 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz]
  simp only [View.readAt_eq_ld, harg2.read_unread, harg3.read_unread, harg6.read_unread, harg7.read_unread, harg8.read_unread,
    View.ld_unit_zero (S := S256x1) hz, View.ld_unit_zero (S := S256x6400) hz, View.readCov_unit_zero (S := S256x1) _ hz]

/-- The second result block: the standard-deviation formula of the sums as just updated. -/
theorem last_std : out0_C_3 c i arg2 harg2 arg3 harg3 arg4 harg4 arg5 harg5 arg6 harg6 arg7 harg7 arg8 harg8 hc0 hc1 x0 x1 xs0 xs1 xs2 = k0_pay2 (k0_pay9 x0 xs0 xs1) (k0_pay10 x0 xs0 xs2) := by
  unfold out0_C_3
  rw [View.read_writes_eq_canon _ _ _ (cover0_C_3 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz]
  simp only [View.readAt_eq_ld, harg2.read_unread, harg3.read_unread, harg6.read_unread, harg7.read_unread, harg8.read_unread,
    View.ld_unit_zero (S := S256x1) hz, View.ld_unit_zero (S := S256x6400) hz, View.readCov_unit_zero (S := S256x1) _ hz]

end Last

end Cert.KernelIdeal.Pieces

end
-- ==== Proof.Spec.lean ====
/-
  The loss kernel's mathematics, stated over extended reals with no program in sight.

  A row of logits is a function `Fin 32000 → EReal`. The kernel walks a row in five blocks of 6400
  columns and carries a triple (running maximum m, running sum of exp (x - m), running sum of
  exp (x - m)²); `upd` is one block's update of that triple and `stAfter x k` the triple after the
  first `k` blocks, starting from (−∞, 0, 0). From the final triple the kernel forms the row's negative
  log-likelihood `nllOf` and the standard deviation `stdOf` of the softmax probabilities with one maximal
  entry dropped, taking the maximal probability to be 1 / Σ exp (x - m) and the probabilities' sum to be 1.

  The reference computes the same two numbers from the whole row: `logp` is the row's log-softmax,
  `prob` its exponential, and `stdR` the same variance formula over the probabilities' true maximum,
  sum and sum of squares. Both share the closing formula `stdTail`.
-/
import Idealize.ShloMosaic.PureOps.Ideal

noncomputable section

namespace Cert.Loss

open Idealize.ShloMosaic

/-- One row of logits. -/
abbrev Row := Fin 32000 → EReal

/-- Every entry is a real number (neither infinity). -/
def IsReal {ι : Type} (x : ι → EReal) : Prop := ∀ c, ∃ r : ℝ, x c = (r : EReal)

/-- The carried triple: running maximum, running Σ exp (x - m), running Σ exp (x - m)². -/
abbrev St := EReal × EReal × EReal

/-! ## The literals both programs spell -/

/-- `1.0` -/
abbrev f1 : EReal := Ideal.ofBits .f32 0x3F800000#32
/-- `31999.0`, the number of probabilities left once a maximal one is dropped -/
abbrev fN : EReal := Ideal.ofBits .f32 0x46F9FE00#32
/-- `31998.0` -/
abbrev fNm1 : EReal := Ideal.ofBits .f32 0x46F9FC00#32
/-- `0.0` -/
abbrev f0 : EReal := Ideal.ofBits .f32 0x00000000#32
/-- the pattern of −∞, a maximum's starting value -/
abbrev fNegInf : EReal := Ideal.ofBits .f32 0xFF800000#32
/-- the quiet-NaN pattern a gather fills an out-of-range label's slot with (it reads as −∞ on the extended reals) -/
abbrev fNaN : EReal := Ideal.ofBits .f32 0x7FC00000#32

/-! ## The kernel's recursion over a row's blocks -/

/-- A block's maximum: the fold of `max` from −∞'s pattern over the block's 6400 entries. -/
def bMax (b : Fin 6400 → EReal) : EReal := (Finset.univ : Finset (Fin 6400)).fold max fNegInf b

/-- One block's update of the carried triple: the new maximum, and both sums rescaled by
    exp (m_old - m_new) (its square for the squares) plus the block's own terms. -/
def upd (st : St) (b : Fin 6400 → EReal) : St :=
  (max st.1 (bMax b),
   Ideal.exp (st.1 - max st.1 (bMax b)) * st.2.1 + ∑ q : Fin 6400, Ideal.exp (b q - max st.1 (bMax b)),
   (Ideal.exp (st.1 - max st.1 (bMax b)) * Ideal.exp (st.1 - max st.1 (bMax b))) * st.2.2
     + ∑ q : Fin 6400, Ideal.exp (b q - max st.1 (bMax b)) * Ideal.exp (b q - max st.1 (bMax b)))

/-- Before the first block: maximum −∞, both sums zero. -/
def st0 : St := (⊥, 0, 0)

/-- Block `k` of a row: its columns 6400·k … 6400·k + 6399 (−∞ past the row's end, which no block meets). -/
def rowBlock (x : Row) (k : ℕ) (q : Fin 6400) : EReal :=
  if h : 6400 * k + q.val < 32000 then x ⟨6400 * k + q.val, h⟩ else ⊥

/-- The carried triple after the first `k` blocks of a row. -/
def stAfter (x : Row) : ℕ → St
  | 0 => st0
  | k + 1 => upd (stAfter x k) (rowBlock x k)

/-! ## The closing formulas -/

/-- The standard deviation of the probabilities with one maximal entry dropped, from their sum `s`,
    their maximum `p`, their sum of squares `sq`, and the divisor `nm1` = n − 1 as the program spells it:
    √ max ((sq − p² − n·((s − p)/n)²) / (n − 1)) 0, with n = 31999. -/
def stdTail (s p sq nm1 : EReal) : EReal :=
  Ideal.sqrt (max (Ideal.div ((sq - p * p) - (fN * Ideal.div (s - p) fN) * Ideal.div (s - p) fN) nm1) f0)

/-- The kernel's negative log-likelihood of a row from its final triple and the label's logit `xl`:
    (m + log Σ) − xl. -/
def nllOf (st : St) (xl : EReal) : EReal := (st.1 + Ideal.log st.2.1) - xl

/-- The kernel's standard deviation of a row from its final triple: maximal probability 1/Σ, probabilities' sum 1,
    sum of squares Σ₂·(1/Σ)·(1/Σ). -/
def stdOf (st : St) : EReal :=
  stdTail f1 (Ideal.div f1 st.2.1) ((st.2.2 * Ideal.div f1 st.2.1) * Ideal.div f1 st.2.1) fNm1

/-! ## The reference's whole-row formulas -/

/-- The row's maximum as the reference takes it: `max` of −∞ with the fold of `max` from −∞ over all columns. -/
def rMax (x : Row) : EReal := max fNegInf ((Finset.univ : Finset (Fin 32000)).fold max fNegInf x)

/-- Σ exp (x − max) over the row, from 0. -/
def rS (x : Row) : EReal := f0 + ∑ c : Fin 32000, Ideal.exp (x c - rMax x)

/-- The row's log-softmax: (x − max) − log Σ exp (x − max). -/
def logp (x : Row) (c : Fin 32000) : EReal := (x c - rMax x) - Ideal.log (rS x)

/-- The softmax probabilities. -/
def prob (x : Row) (c : Fin 32000) : EReal := Ideal.exp (logp x c)

/-- The reference's standard deviation of a row: the same closing formula over the probabilities' true maximum,
    sum and sum of squares, with n − 1 computed as 31999 − 1. -/
def stdR (x : Row) : EReal :=
  stdTail (f0 + ∑ c : Fin 32000, prob x c) ((Finset.univ : Finset (Fin 32000)).fold max fNegInf (prob x))
    (f0 + ∑ c : Fin 32000, prob x c * prob x c) (fN - f1)

end Cert.Loss

end
-- ==== Proof.LibColumn.lean ====
/-
  General lemmas: a column kept beside a matrix (jnp's keepdims=True).
  A rank-1 array cast to a column reads the operand at the row; a column broadcast across a matrix's columns reads the
  column at the row. (The library has the leading-unit-axis casts and the row broadcast; these are the trailing-unit-axis
  forms every kernel with a keepdims row reduction meets.)
-/
import Idealize.ShloMosaic.Lib.ValueIdx
import Idealize.ShloMosaic.Lib.Pipeline.Value

noncomputable section

open Idealize.ShloMosaic Idealize.ShloMosaic.ValueIdx

namespace Cert.Lib.Column

/-- An `[a]` array cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- A column `[a, 1]` broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.KRow.lean ====
/-
  The body's arithmetic, read at one row.

  Everything the kernel body computes is row-local: row ρ of the three carried columns after a column block depends
  only on row ρ of the columns before it and on row ρ of the logits block. This module reads each of the body's
  expressions at the entry (ρ, 0) of its 256 × 1 result on the extended reals and finds the specification's
  functions: the update of the carried triple `upd`, and at a row block's last column block the two results
  `nllOf` and `stdOf` of the updated triple. A block's row maximum is the fold of max from −∞'s pattern over the
  row's 6400 entries, its row sums are sums over them; the 256-vector of row results becomes a 256 × 1 column, and a
  column is spread over the block's 6400 columns, by re-indexing alone.
-/
import proofs.«431235_j43164421325263_3_alg».proof.Proof.Gen.KernelIdeal.Skeleton
import proofs.«431235_j43164421325263_3_alg».proof.Proof.Spec
import proofs.«431235_j43164421325263_3_alg».proof.Proof.LibColumn
import Idealize.ShloMosaic.Lib.ValueIdx
import Idealize.ShloMosaic.Lib.Pipeline.Value
import Idealize.ShloMosaic.PureOps.Ideal.Laws
import Idealize.ShloMosaic.PureOps.IdealRules

noncomputable section

open Idealize.ShloMosaic Idealize.ShloMosaic.ValueIdx

namespace Cert.KernelIdeal.RowMath

open Cert.KernelIdeal Cert.KernelIdeal.Gen Cert.Loss Cert.Lib.Column

/-! ## A block's rows -/

/-- Row ρ of a 256 × 6400 block of logits. -/
def blkRow (b : FVec Ideal S256x6400 .f32) (ρ : Fin 256) : Fin 6400 → EReal := fun q => b (ix2 ρ q)

/-- Row ρ of the three carried columns, as a triple. -/
def stAt (mx s1 s2 : FVec Ideal S256x1 .f32) (ρ : Fin 256) : St := (mx (ix2 ρ 0), s1 (ix2 ρ 0), s2 (ix2 ρ 0))

/-- The index a reduction along the columns visits for row ρ at column k. -/
theorem lift_eq (ρ : Fin 256) (k : Fin 6400) : reduces_S256x6400_S256.lift (ix1 ρ) k = ix2 ρ k := by
  funext a
  match a with
  | ⟨0, _⟩ => rfl
  | ⟨1, _⟩ => rfl

/-- A block's row maximum at row ρ. -/
theorem blockMax_at (b : FVec Ideal S256x6400 .f32) (ρ : Fin 256) :
    multiReduction (F := Ideal) .maximumf [1] S256 b 0xFF800000#32 reduces_S256x6400_S256 (.inl rfl) rfl (ix1 ρ) = bMax (blkRow b ρ) := by
  refine (Ideal.multiReduction_maximumf_single b 0xFF800000#32 reduces_S256x6400_S256 (.inl rfl) rfl (ix1 ρ)).trans ?_
  unfold bMax blkRow
  refine congrArg (fun f => (Finset.univ : Finset (Fin 6400)).fold max _ f) (funext fun k => ?_)
  exact congrArg b (lift_eq ρ k)

/-- A block's row sum at row ρ. -/
theorem blockSum_at (e : FVec Ideal S256x6400 .f32) (ρ : Fin 256) :
    multiReduction (F := Ideal) .add [1] S256 e 0x00000000#32 reduces_S256x6400_S256 (.inl rfl) rfl (ix1 ρ) = ∑ q : Fin 6400, e (ix2 ρ q) := by
  refine (Ideal.multiReduction_add_single e 0x00000000#32 reduces_S256x6400_S256 (.inl rfl) rfl (ix1 ρ)).trans ?_
  exact Finset.sum_congr rfl fun k _ => congrArg e (lift_eq ρ k)

/-! ## The body's expressions at row ρ -/

section AtRow
variable (b : FVec Ideal S256x6400 .f32) (mx s1 s2 xl : FVec Ideal S256x1 .f32) (ρ : Fin 256)

/-- The new running maximum: the old one against the block's row maximum. -/
theorem newMax_at : k0_pay6 (F := Ideal) b mx (ix2 ρ 0) = max (mx (ix2 ρ 0)) (bMax (blkRow b ρ)) := by
  unfold k0_pay6
  dsimp only
  show max (mx (ix2 ρ 0)) (shapeCast S256x1 _ shapeCasts_S256_S256x1 (ix2 ρ 0)) = _
  refine congrArg (max (mx (ix2 ρ 0))) ?_
  exact (shapeCast_a_a1_apply _ _ ρ 0).trans (blockMax_at b ρ)

/-- The maximum as stored back. -/
theorem storedMax_at : k0_pay11 (F := Ideal) b mx (ix2 ρ 0) = max (mx (ix2 ρ 0)) (bMax (blkRow b ρ)) := by
  unfold k0_pay11
  rw [shapeCast_self]
  exact newMax_at b mx ρ

/-- The rescaling factor exp (m_old − m_new). -/
theorem corr_at : k0_pay7 (F := Ideal) b mx (ix2 ρ 0) = Ideal.exp (mx (ix2 ρ 0) - max (mx (ix2 ρ 0)) (bMax (blkRow b ρ))) := by
  unfold k0_pay7
  show Ideal.exp (mx (ix2 ρ 0) - k0_pay6 (F := Ideal) b mx (ix2 ρ 0)) = _
  rw [newMax_at]

/-- exp (x − m_new) at column q of row ρ. -/
theorem expBlk_at (q : Fin 6400) :
    k0_pay8 (F := Ideal) b mx (ix2 ρ q) = Ideal.exp (b (ix2 ρ q) - max (mx (ix2 ρ 0)) (bMax (blkRow b ρ))) := by
  unfold k0_pay8
  show Ideal.exp (b (ix2 ρ q) - broadcastTo S256x6400 (k0_pay6 (F := Ideal) b mx) broadcasts_S256x1_S256x6400 (ix2 ρ q)) = _
  rw [broadcastTo_a1_ab_apply, newMax_at]

/-- The new running sum: the old one rescaled, plus the block's row sum of exp (x − m_new). -/
theorem newSum_at : k0_pay9 (F := Ideal) b mx s1 (ix2 ρ 0)
    = Ideal.exp (mx (ix2 ρ 0) - max (mx (ix2 ρ 0)) (bMax (blkRow b ρ))) * s1 (ix2 ρ 0)
      + ∑ q : Fin 6400, Ideal.exp (blkRow b ρ q - max (mx (ix2 ρ 0)) (bMax (blkRow b ρ))) := by
  unfold k0_pay9
  dsimp only
  rw [shapeCast_self]
  show k0_pay7 (F := Ideal) b mx (ix2 ρ 0) * s1 (ix2 ρ 0) + shapeCast S256x1 _ shapeCasts_S256_S256x1 (ix2 ρ 0) = _
  rw [corr_at]
  refine congrArg (HAdd.hAdd (Ideal.exp (mx (ix2 ρ 0) - max (mx (ix2 ρ 0)) (bMax (blkRow b ρ))) * s1 (ix2 ρ 0))) ?_
  refine (shapeCast_a_a1_apply _ _ ρ 0).trans ?_
  refine (blockSum_at _ ρ).trans ?_
  exact Finset.sum_congr rfl fun q _ => expBlk_at b mx ρ q

/-- The new running sum of squares: the old one rescaled by the factor's square, plus the block's row sum of exp (x − m_new)². -/
theorem newSumSq_at : k0_pay10 (F := Ideal) b mx s2 (ix2 ρ 0)
    = (Ideal.exp (mx (ix2 ρ 0) - max (mx (ix2 ρ 0)) (bMax (blkRow b ρ))) * Ideal.exp (mx (ix2 ρ 0) - max (mx (ix2 ρ 0)) (bMax (blkRow b ρ)))) * s2 (ix2 ρ 0)
      + ∑ q : Fin 6400, Ideal.exp (blkRow b ρ q - max (mx (ix2 ρ 0)) (bMax (blkRow b ρ))) * Ideal.exp (blkRow b ρ q - max (mx (ix2 ρ 0)) (bMax (blkRow b ρ))) := by
  unfold k0_pay10
  dsimp only
  rw [shapeCast_self]
  show (k0_pay7 (F := Ideal) b mx (ix2 ρ 0) * k0_pay7 (F := Ideal) b mx (ix2 ρ 0)) * s2 (ix2 ρ 0) + shapeCast S256x1 _ shapeCasts_S256_S256x1 (ix2 ρ 0) = _
  rw [corr_at]
  refine congrArg (HAdd.hAdd ((Ideal.exp (mx (ix2 ρ 0) - max (mx (ix2 ρ 0)) (bMax (blkRow b ρ))) * Ideal.exp (mx (ix2 ρ 0) - max (mx (ix2 ρ 0)) (bMax (blkRow b ρ)))) * s2 (ix2 ρ 0))) ?_
  refine (shapeCast_a_a1_apply _ _ ρ 0).trans ?_
  refine (blockSum_at _ ρ).trans ?_
  refine Finset.sum_congr rfl fun q _ => ?_
  show k0_pay8 (F := Ideal) b mx (ix2 ρ q) * k0_pay8 (F := Ideal) b mx (ix2 ρ q) = _
  rw [expBlk_at]
  rfl

/-- ONE BLOCK'S UPDATE, at row ρ: the three columns after the block are the specification's update of the three
    columns before it by the block's row. -/
theorem upd_at : stAt (k0_pay11 (F := Ideal) b mx) (k0_pay9 (F := Ideal) b mx s1) (k0_pay10 (F := Ideal) b mx s2) ρ = upd (stAt mx s1 s2 ρ) (blkRow b ρ) := by
  unfold stAt upd
  dsimp only
  rw [storedMax_at, newSum_at, newSumSq_at]

/-- The reset values at row ρ: −∞ (the named stand-in), 0, 0. -/
theorem reset_at : stAt (k0_pay3 (F := Ideal)) (k0_pay4 (F := Ideal)) (k0_pay5 (F := Ideal)) ρ = st0 := by
  unfold stAt st0 k0_pay3 k0_pay4 k0_pay5
  simp only [shapeCast_self]
  refine Prod.ext ?_ (Prod.ext ?_ ?_)
  · exact IdealRules.named_const.ideal_named_scalar _ _ _ _ rfl
  · exact Ideal.ofBits_zero_f32
  · exact Ideal.ofBits_zero_f32

/-- The first result at row ρ: (m + log Σ) − label logit, of the columns it is computed from. -/
theorem nll_at : k0_pay1 (F := Ideal) mx s1 xl (ix2 ρ 0) = nllOf (stAt mx s1 s2 ρ) (xl (ix2 ρ 0)) := by
  unfold k0_pay1 nllOf stAt
  dsimp only
  rw [shapeCast_self]
  rfl

/-- The second result at row ρ: the standard-deviation formula of the two sums. -/
theorem std_at : k0_pay2 (F := Ideal) s1 s2 (ix2 ρ 0) = stdOf (stAt mx s1 s2 ρ) := by
  unfold k0_pay2 stdOf stdTail stAt
  dsimp only
  rfl

end AtRow

end Cert.KernelIdeal.RowMath

end
-- ==== Proof.Rows.lean ====
/-
  Rows of the logits array, and the mean over the 4096 rows as both programs form it.
-/
import proofs.«431235_j43164421325263_3_alg».proof.Proof.Spec
import Idealize.ShloMosaic.Lib.ValueIdx

noncomputable section

namespace Cert.Loss

open Idealize.ShloMosaic Idealize.ShloMosaic.ValueIdx

/-- Row `r` of a 4096 × 32000 array of logits. -/
def rowOf (L : (⟨2, ![4096, 32000]⟩ : Shape).Idx → EReal) (r : Fin 4096) : Row := fun c => L (ix2 r c)

/-- `4096.0` -/
abbrev f4096 : EReal := Ideal.ofBits .f32 0x45800000#32

/-- The mean of one value per row as both programs form it: (0 + Σ over the rows) / 4096. -/
def meanRows (g : Fin 4096 → EReal) : EReal := Ideal.div (f0 + ∑ r : Fin 4096, g r) f4096

/-- A sum over the entries of a 4096 × 1 column is the sum over its rows. -/
theorem sum_col {M : Type*} [AddCommMonoid M] (f : (⟨2, ![4096, 1]⟩ : Shape).Idx → M) :
    ∑ i, f i = ∑ r : Fin 4096, f (ix2 r 0) := by
  rw [sum_idx2]
  exact Finset.sum_congr rfl fun r _ => Fin.sum_univ_one _

end Cert.Loss

end
-- ==== Proof.KInv.lean ====
/-
  The carried columns, point by point.

  The grid has 16 row blocks of 256 rows and, inside each, 5 column blocks of 6400 columns, walked row block by row
  block: point t works on row block t / 5 and column block t % 5. Window 0's block at point t is the logits at rows
  256·(t/5) … and columns 6400·(t%5) …; window 1's is the label logits of the same rows. By induction on the point, row ρ of
  the three carried columns after point t is the specification's triple `stAfter` of logits row 256·(t/5) + ρ after
  t % 5 + 1 blocks: a row block's first point resets and updates, every later point updates what the point before
  left. At a row block's last point the two result blocks are `nllOf` and `stdOf` of that row's final triple.
-/
import proofs.«431235_j43164421325263_3_alg».proof.Proof.Gen.KernelIdeal.Frame
import proofs.«431235_j43164421325263_3_alg».proof.Proof.KPieces
import proofs.«431235_j43164421325263_3_alg».proof.Proof.KRow
import proofs.«431235_j43164421325263_3_alg».proof.Proof.Rows
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.Pieces Cert.KernelIdeal.RowMath Cert.Loss

variable (m : (ℓ : Loc nD τ sig) → Buf (Elt Ideal) ℓ)

/-! ## The arrays and blocks, at their literal types -/

/-- The logits as the region finds them. -/
abbrev logits (c : Dev nD) : FVec Ideal S4096x32000 .f32 := V m c main_arg0
/-- The label logits as the region finds them. -/
abbrev lblLogit (c : Dev nD) : FVec Ideal S4096x1 .f32 := V m c main_v1
/-- The logits block of point `t`. -/
abbrev lblk (c : Dev nD) (t : Fin cfg0.N) : FVec Ideal S256x6400 .f32 := iblk m c 0 t
/-- The label-logit block of point `t`. -/
abbrev xblk (c : Dev nD) (t : Fin cfg0.N) : FVec Ideal S256x1 .f32 := iblk m c 1 t

/-- The printed index maps over the grid: every window's row-block index is t / 5; the logits window's column-block
    index is t % 5, the others' 0. -/
theorem idx_facts : ∀ t : Fin cfg0.N, win0_0.index t (0 : Fin 2) = t.val / 5 ∧ win0_0.index t (1 : Fin 2) = t.val % 5
    ∧ win0_1.index t (0 : Fin 2) = t.val / 5 ∧ win0_1.index t (1 : Fin 2) = 0
    ∧ win0_2.index t (0 : Fin 2) = t.val / 5 ∧ win0_2.index t (1 : Fin 2) = 0
    ∧ win0_3.index t (0 : Fin 2) = t.val / 5 ∧ win0_3.index t (1 : Fin 2) = 0 :=
  (by decide +kernel : ∀ t : Fin grid0.N, _)

theorem rowIx_lt (n : ℕ) (hn : n < cfg0.N) (ρ : Fin 256) : 256 * (n / 5) + ρ.val < 4096 := by
  have hN : cfg0.N = 80 := N_0
  have := ρ.isLt
  omega

/-- The logits row that row ρ of point `n`'s blocks is. -/
def rowIx (n : ℕ) (hn : n < cfg0.N) (ρ : Fin 256) : Fin 4096 := ⟨256 * (n / 5) + ρ.val, rowIx_lt n hn ρ⟩

/-- The logits block at (ρ, q) is the logits at row 256·(t/5) + ρ, column 6400·(t%5) + q. -/
theorem lblk_apply (c : Dev nD) (t : Fin cfg0.N) (ρ : Fin 256) (q : Fin 6400) (hq : 6400 * (t.val % 5) + q.val < 32000) :
    lblk m c t (ix2 ρ q) = logits m c (ix2 (rowIx t.val t.isLt ρ) ⟨6400 * (t.val % 5) + q.val, hq⟩) := by
  obtain ⟨e0, e1, -⟩ := idx_facts t
  unfold lblk iblk
  rw [View.read_apply]
  show V m c main_arg0 _ = V m c main_arg0 _
  refine congrArg (V m c main_arg0) (funext fun a => Fin.ext ?_)
  match a with
  | ⟨0, _⟩ => show win0_0.index t (0 : Fin 2) * 256 + 1 * ρ.val = 256 * (t.val / 5) + ρ.val; rw [e0]; omega
  | ⟨1, _⟩ => show win0_0.index t (1 : Fin 2) * 6400 + 1 * q.val = 6400 * (t.val % 5) + q.val; rw [e1]; omega

/-- The label-logit block at (ρ, 0) is the label logit of row 256·(t/5) + ρ. -/
theorem xblk_apply (c : Dev nD) (t : Fin cfg0.N) (ρ : Fin 256) :
    xblk m c t (ix2 ρ 0) = lblLogit m c (ix2 (rowIx t.val t.isLt ρ) 0) := by
  obtain ⟨-, -, e0, e1, -⟩ := idx_facts t
  unfold xblk iblk
  rw [View.read_apply]
  show V m c main_v1 _ = V m c main_v1 _
  refine congrArg (V m c main_v1) (funext fun a => Fin.ext ?_)
  match a with
  | ⟨0, _⟩ => show win0_1.index t (0 : Fin 2) * 256 + 1 * ρ.val = 256 * (t.val / 5) + ρ.val; rw [e0]; omega
  | ⟨1, _⟩ => show win0_1.index t (1 : Fin 2) * 1 + 1 * 0 = 0; rw [e1]

/-- Row ρ of point `t`'s logits block is block t % 5 of logits row 256·(t/5) + ρ. -/
theorem blkRow_eq (c : Dev nD) (t : Fin cfg0.N) (ρ : Fin 256) :
    blkRow (lblk m c t) ρ = rowBlock (rowOf (logits m c) (rowIx t.val t.isLt ρ)) (t.val % 5) := by
  funext q
  have hq : 6400 * (t.val % 5) + q.val < 32000 := by have := q.isLt; omega
  unfold blkRow rowBlock rowOf
  rw [dif_pos hq]
  exact lblk_apply m c t ρ q hq

/-! ## One point's step, by case -/

/-- Row ρ of the three carried columns after point `n`. -/
def scAt (c : Dev nD) (n : ℕ) (hn : n < cfg0.N) (ρ : Fin 256) : St :=
  stAt (outsAt0 m c n hn).2.2.1 (outsAt0 m c n hn).2.2.2.1 (outsAt0 m c n hn).2.2.2.2 ρ

section Cases
variable (c : Dev nD) (t : Fin cfg0.N) (ρ : Fin 256)

/-- A row block's first point: the update of the reset triple by the block's row. -/
theorem first_triple (hc0 : cond0_0 (grid0.coords t)) (hc1 : ¬cond0_1 (grid0.coords t)) :
    stAt (sout0_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (lblk m c t) (xblk m c t)) (sout0_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (lblk m c t) (xblk m c t))
      (sout0_A_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (lblk m c t) (xblk m c t)) ρ = upd st0 (blkRow (lblk m c t) ρ) := by
  rw [first_max, first_sum, first_sumsq]
  refine (upd_at (lblk m c t) _ _ _ ρ).trans ?_
  rw [reset_at]

/-- A middle point: the update of the triple found. -/
theorem middle_triple (hc0 : ¬cond0_0 (grid0.coords t)) (hc1 : ¬cond0_1 (grid0.coords t)) (xs0 xs1 xs2 : FVec Ideal S256x1 .f32) :
    stAt (sout0_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (lblk m c t) (xblk m c t) xs0 xs1 xs2) (sout0_B_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (lblk m c t) (xblk m c t) xs0 xs1 xs2)
      (sout0_B_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (lblk m c t) (xblk m c t) xs0 xs1 xs2) ρ = upd (stAt xs0 xs1 xs2 ρ) (blkRow (lblk m c t) ρ) := by
  rw [middle_max, middle_sum, middle_sumsq]
  exact upd_at (lblk m c t) xs0 xs1 xs2 ρ

/-- A row block's last point: the same update of the triple found. -/
theorem last_triple (hc0 : ¬cond0_0 (grid0.coords t)) (hc1 : cond0_1 (grid0.coords t)) (xs0 xs1 xs2 : FVec Ideal S256x1 .f32) :
    stAt (sout0_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (lblk m c t) (xblk m c t) xs0 xs1 xs2) (sout0_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (lblk m c t) (xblk m c t) xs0 xs1 xs2)
      (sout0_C_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (lblk m c t) (xblk m c t) xs0 xs1 xs2) ρ = upd (stAt xs0 xs1 xs2 ρ) (blkRow (lblk m c t) ρ) := by
  rw [last_max, last_sum, last_sumsq]
  exact upd_at (lblk m c t) xs0 xs1 xs2 ρ

/-- … and the first result block there, at row ρ: the negative log-likelihood of the updated triple against the row's label logit. -/
theorem last_nll_row (hc0 : ¬cond0_0 (grid0.coords t)) (hc1 : cond0_1 (grid0.coords t)) (xs0 xs1 xs2 : FVec Ideal S256x1 .f32) :
    out0_C_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (lblk m c t) (xblk m c t) xs0 xs1 xs2 (ix2 ρ 0)
      = nllOf (upd (stAt xs0 xs1 xs2 ρ) (blkRow (lblk m c t) ρ)) (xblk m c t (ix2 ρ 0)) := by
  rw [last_nll]
  refine (nll_at _ _ (k0_pay10 (F := Ideal) (lblk m c t) xs0 xs2) (xblk m c t) ρ).trans ?_
  rw [upd_at]

/-- … and the second, at row ρ: the standard deviation of the updated triple. -/
theorem last_std_row (hc0 : ¬cond0_0 (grid0.coords t)) (hc1 : cond0_1 (grid0.coords t)) (xs0 xs1 xs2 : FVec Ideal S256x1 .f32) :
    out0_C_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (lblk m c t) (xblk m c t) xs0 xs1 xs2 (ix2 ρ 0)
      = stdOf (upd (stAt xs0 xs1 xs2 ρ) (blkRow (lblk m c t) ρ)) := by
  rw [last_std]
  refine (std_at (k0_pay11 (F := Ideal) (lblk m c t) xs0) _ _ ρ).trans ?_
  rw [upd_at]

end Cases

/-! ## The induction over the points -/

/-- THE INVARIANT: row ρ of the carried columns after point `n` is the triple of logits row 256·(n/5) + ρ after its first
    n % 5 + 1 blocks. -/
theorem scAt_eq (c : Dev nD) : ∀ (n : ℕ) (hn : n < cfg0.N) (ρ : Fin 256),
    scAt m c n hn ρ = stAfter (rowOf (logits m c) (rowIx n hn ρ)) (n % 5 + 1)
  | 0, hn, ρ => by
    unfold scAt
    rw [outsAt0_A m c ⟨0, hn⟩ rfl (by dsimp only; omega)]
    dsimp only
    refine (first_triple m c ⟨0, hn⟩ ρ _ _).trans ?_
    rw [blkRow_eq]
    rfl
  | n + 1, hn, ρ => by
    have hN : cfg0.N = 80 := N_0
    by_cases h0 : (n + 1) % 5 = 0
    · have h1 : ¬(n + 1) % 5 = 4 := by omega
      unfold scAt
      rw [outsAt0_A m c ⟨n + 1, hn⟩ h0 h1]
      dsimp only
      refine (first_triple m c ⟨n + 1, hn⟩ ρ _ _).trans ?_
      rw [blkRow_eq]
      show upd st0 (rowBlock _ ((n + 1) % 5)) = stAfter _ ((n + 1) % 5 + 1)
      rw [h0]
      rfl
    · have ih := scAt_eq c n (Nat.lt_of_succ_lt hn) ρ
      have e1 : rowIx n (Nat.lt_of_succ_lt hn) ρ = rowIx (n + 1) hn ρ :=
        Fin.ext (by show 256 * (n / 5) + ρ.val = 256 * ((n + 1) / 5) + ρ.val; omega)
      have e2 : n % 5 + 1 = (n + 1) % 5 := by omega
      rw [e1, e2] at ih
      by_cases h1 : (n + 1) % 5 = 4
      · unfold scAt
        rw [outsAt0_C m c ⟨n + 1, hn⟩ h0 h1]
        dsimp only
        refine (last_triple m c ⟨n + 1, hn⟩ ρ _ _ _ _ _).trans ?_
        rw [blkRow_eq]
        show upd (scAt m c n _ ρ) (rowBlock _ ((n + 1) % 5)) = stAfter _ ((n + 1) % 5 + 1)
        rw [ih]
        rfl
      · unfold scAt
        rw [outsAt0_B m c ⟨n + 1, hn⟩ h0 h1]
        dsimp only
        refine (middle_triple m c ⟨n + 1, hn⟩ ρ _ _ _ _ _).trans ?_
        rw [blkRow_eq]
        show upd (scAt m c n _ ρ) (rowBlock _ ((n + 1) % 5)) = stAfter _ ((n + 1) % 5 + 1)
        rw [ih]
        rfl

/-! ## The two result blocks at a row block's last point -/

section Results
variable (c : Dev nD) (t : Fin cfg0.N) (ρ : Fin 256)

/-- At a row block's last point, row ρ of the carried columns is the row's final triple. -/
theorem scAt_last (h1 : t.val % 5 = 4) : scAt m c t.val t.isLt ρ = stAfter (rowOf (logits m c) (rowIx t.val t.isLt ρ)) 5 := by
  rw [scAt_eq, h1]

/-- The first result block at row ρ: the row's negative log-likelihood against its label logit. -/
theorem nll_out (h1 : t.val % 5 = 4) : (outsAt0 m c t.val t.isLt).1 (ix2 ρ 0)
    = nllOf (stAfter (rowOf (logits m c) (rowIx t.val t.isLt ρ)) 5) (lblLogit m c (ix2 (rowIx t.val t.isLt ρ) 0)) := by
  have h0 : ¬t.val % 5 = 0 := by omega
  have hs := scAt_last m c t ρ h1
  unfold scAt at hs
  rw [outsAt0_C m c t h0 h1] at hs ⊢
  dsimp only at hs ⊢
  refine (last_nll_row m c t ρ _ _ _ _ _).trans ?_
  rw [← last_triple m c t ρ (fun h => h0 ((hcond0_0 t).mp h)) ((hcond0_1 t).mpr h1), hs, xblk_apply]

/-- The second result block at row ρ: the row's standard deviation. -/
theorem std_out (h1 : t.val % 5 = 4) : (outsAt0 m c t.val t.isLt).2.1 (ix2 ρ 0)
    = stdOf (stAfter (rowOf (logits m c) (rowIx t.val t.isLt ρ)) 5) := by
  have h0 : ¬t.val % 5 = 0 := by omega
  have hs := scAt_last m c t ρ h1
  unfold scAt at hs
  rw [outsAt0_C m c t h0 h1] at hs ⊢
  dsimp only at hs ⊢
  refine (last_std_row m c t ρ _ _ _ _ _).trans ?_
  rw [← last_triple m c t ρ (fun h => h0 ((hcond0_0 t).mp h)) ((hcond0_1 t).mpr h1), hs]

end Results

end Cert.KernelIdeal.Inv

end
-- ==== Proof.KFinal.lean ====
/-
  From blocks to arrays. Each of the region's two 4096 × 1 result arrays is written back once per row block, at the row
  block's last column block, as a 256 × 1 block whose row ρ is logits row 256·(t/5) + ρ's result; the sixteen blocks tile
  the array. So entry (r, 0) of the first array is row r's negative log-likelihood against its label logit and entry
  (r, 0) of the second is row r's standard deviation, both of the row's final carried triple.
-/
import proofs.«431235_j43164421325263_3_alg».proof.Proof.KInv

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Inv Cert.Loss

variable (m : (ℓ : Loc nD τ sig) → Buf (Elt Ideal) ℓ)

/-- Row r's negative log-likelihood as the kernel forms it: of the row's final triple against the row's label logit. -/
def nllRow (c : Dev nD) (r : Fin 4096) : EReal :=
  nllOf (stAfter (rowOf (logits m c) r) 5) (lblLogit m c (ix2 r 0))

/-- Row r's standard deviation as the kernel forms it: of the row's final triple. -/
def stdRow (c : Dev nD) (r : Fin 4096) : EReal := stdOf (stAfter (rowOf (logits m c) r) 5)

/-- The first result array: one negative log-likelihood per row. -/
def nllArr (c : Dev nD) : FVec Ideal S4096x1 .f32 := fun i => nllRow m c ⟨(i 0).val, idx2_lt0 i⟩

/-- The second result array: one standard deviation per row. -/
def stdArr (c : Dev nD) : FVec Ideal S4096x1 .f32 := fun i => stdRow m c ⟨(i 0).val, idx2_lt0 i⟩

theorem nllArr_apply (c : Dev nD) (r : Fin 4096) : nllArr m c (ix2 r 0) = nllRow m c r := rfl
theorem stdArr_apply (c : Dev nD) (r : Fin 4096) : stdArr m c (ix2 r 0) = stdRow m c r := rfl

/-- Where point `t`'s 256 × 1 block sits in a result array: rows 256·(t/5) …, for either result window. -/
theorem emb2 (t : Fin cfg0.N) (ρ : Fin 256) : ((cfg0.win 2).blk t).view.emb (ix2 ρ 0) = ix2 (rowIx t.val t.isLt ρ) 0 := by
  obtain ⟨-, -, -, -, e0, e1, -⟩ := idx_facts t
  funext a
  apply Fin.ext
  match a with
  | ⟨0, _⟩ => show win0_2.index t (0 : Fin 2) * 256 + 1 * ρ.val = 256 * (t.val / 5) + ρ.val; rw [e0]; omega
  | ⟨1, _⟩ => show win0_2.index t (1 : Fin 2) * 1 + 1 * 0 = 0; rw [e1]

theorem emb3 (t : Fin cfg0.N) (ρ : Fin 256) : ((cfg0.win 3).blk t).view.emb (ix2 ρ 0) = ix2 (rowIx t.val t.isLt ρ) 0 := by
  obtain ⟨-, -, -, -, -, -, e0, e1⟩ := idx_facts t
  funext a
  apply Fin.ext
  match a with
  | ⟨0, _⟩ => show win0_3.index t (0 : Fin 2) * 256 + 1 * ρ.val = 256 * (t.val / 5) + ρ.val; rw [e0]; omega
  | ⟨1, _⟩ => show win0_3.index t (1 : Fin 2) * 1 + 1 * 0 = 0; rw [e1]

/-- WHAT A FLUSHING POINT WRITES BACK into the first result array is its block of `nllArr`. -/
theorem flushed2_eq (c : Dev nD) (t : Fin cfg0.N) (hf : (cfg0.win 2).flush t = true) :
    (dats m 0 c).flushed 2 t = ((cfg0.win 2).blk t).view.read (Elt Ideal) (nllArr m c) := by
  have h1 : t.val % 5 = 4 := (flush0_2 t).mp hf
  show (cfg0.win 2).cut (grid0.coords t) ((dats m 0 c).after 2 t) = _
  rw [after0_2]
  funext j
  obtain ⟨ρ, u, rfl⟩ : ∃ (ρ : Fin 256) (u : Fin 1), j = ix2 ρ u := ⟨j 0, j 1, eq_ix2 j⟩
  obtain rfl : u = 0 := Subsingleton.elim _ _
  show (outsAt0 m c t.val t.isLt).1 (ix2 ρ 0) = nllArr m c (((cfg0.win 2).blk t).view.emb (ix2 ρ 0))
  rw [nll_out m c t ρ h1, emb2 t ρ]
  rfl

/-- … and into the second its block of `stdArr`. -/
theorem flushed3_eq (c : Dev nD) (t : Fin cfg0.N) (hf : (cfg0.win 3).flush t = true) :
    (dats m 0 c).flushed 3 t = ((cfg0.win 3).blk t).view.read (Elt Ideal) (stdArr m c) := by
  have h1 : t.val % 5 = 4 := (flush0_3 t).mp hf
  show (cfg0.win 3).cut (grid0.coords t) ((dats m 0 c).after 3 t) = _
  rw [after0_3]
  funext j
  obtain ⟨ρ, u, rfl⟩ : ∃ (ρ : Fin 256) (u : Fin 1), j = ix2 ρ u := ⟨j 0, j 1, eq_ix2 j⟩
  obtain rfl : u = 0 := Subsingleton.elim _ _
  show (outsAt0 m c t.val t.isLt).2.1 (ix2 ρ 0) = stdArr m c (((cfg0.win 3).blk t).view.emb (ix2 ρ 0))
  rw [std_out m c t ρ h1, emb3 t ρ]
  rfl

/-- The row block's last point, for the row block that holds array row `i 0`. -/
def lastPt (i : S4096x1.Idx) : Fin cfg0.N :=
  ⟨5 * ((i 0).val / 256) + 4, by have hN : cfg0.N = 80 := N_0; have := idx2_lt0 i; omega⟩

/-- An index of a result array is in point `t`'s block iff each coordinate is in the block's range on its axis. -/
theorem mem_blk2 (t : Fin cfg0.N) (i : S4096x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v2_0).slice (win0_2.rect t)).set ↔ _
  rw [View.set_slice_whole, Rect.mem_set_unit]
  exact Iff.rfl

theorem mem_blk3 (t : Fin cfg0.N) (i : S4096x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v2_1).slice (win0_3.rect t)).set ↔ _
  rw [View.set_slice_whole, Rect.mem_set_unit]
  exact Iff.rfl

/-- Every entry of the first result array is written back by its row block's last point. -/
theorem cover2 (i : S4096x1.Idx) : ∃ t : Fin cfg0.N, (cfg0.win 2).flush t = true ∧ i ∈ ((cfg0.win 2).blk t).view.set := by
  have hi0 : (i 0).val < 4096 := idx2_lt0 i
  have hi1 : (i 1).val < 1 := idx2_lt1 i
  refine ⟨lastPt i, (flush0_2 (lastPt i)).mpr (by show (5 * ((i 0).val / 256) + 4) % 5 = 4; omega), ?_⟩
  obtain ⟨-, -, -, -, e0, e1, -⟩ := idx_facts (lastPt i)
  have hv : (lastPt i).val = 5 * ((i 0).val / 256) + 4 := rfl
  rw [mem_blk2]
  intro a
  match a with
  | ⟨0, _⟩ => show win0_2.index (lastPt i) (0 : Fin 2) * 256 ≤ (i 0).val ∧ (i 0).val < win0_2.index (lastPt i) (0 : Fin 2) * 256 + 256; rw [e0, hv]; omega
  | ⟨1, _⟩ => show win0_2.index (lastPt i) (1 : Fin 2) * 1 ≤ (i 1).val ∧ (i 1).val < win0_2.index (lastPt i) (1 : Fin 2) * 1 + 1; rw [e1]; omega

/-- … and every entry of the second likewise. -/
theorem cover3 (i : S4096x1.Idx) : ∃ t : Fin cfg0.N, (cfg0.win 3).flush t = true ∧ i ∈ ((cfg0.win 3).blk t).view.set := by
  have hi0 : (i 0).val < 4096 := idx2_lt0 i
  have hi1 : (i 1).val < 1 := idx2_lt1 i
  refine ⟨lastPt i, (flush0_3 (lastPt i)).mpr (by show (5 * ((i 0).val / 256) + 4) % 5 = 4; omega), ?_⟩
  obtain ⟨-, -, -, -, -, -, e0, e1⟩ := idx_facts (lastPt i)
  have hv : (lastPt i).val = 5 * ((i 0).val / 256) + 4 := rfl
  rw [mem_blk3]
  intro a
  match a with
  | ⟨0, _⟩ => show win0_3.index (lastPt i) (0 : Fin 2) * 256 ≤ (i 0).val ∧ (i 0).val < win0_3.index (lastPt i) (0 : Fin 2) * 256 + 256; rw [e0, hv]; omega
  | ⟨1, _⟩ => show win0_3.index (lastPt i) (1 : Fin 2) * 1 ≤ (i 1).val ∧ (i 1).val < win0_3.index (lastPt i) (1 : Fin 2) * 1 + 1; rw [e1]; omega

/-- THE FIRST RESULT ARRAY after the region. -/
theorem final2 (c : Dev nD) : (dats m 0 c).arrAt 2 cfg0.N = nllArr m c :=
  (dats m 0 c).arrAt_eq_of_cover 2 (nllArr m c) (flushed2_eq m c) cover2

/-- THE SECOND RESULT ARRAY after the region. -/
theorem final3 (c : Dev nD) : (dats m 0 c).arrAt 3 cfg0.N = stdArr m c :=
  (dats m 0 c).arrAt_eq_of_cover 3 (stdArr m c) (flushed3_eq m c) cover3

end Cert.KernelIdeal.Final

end
-- ==== Proof.KHost.lean ====
/-
  The kernel program's host side. Before the region the program picks each row's label logit out of the logits
  array (negative labels moved up by 32000, a label still outside the row answered by the NaN pattern): that is
  the 4096 × 1 array the region's second window reads. After the region it averages each of the region's two
  4096 × 1 results over the rows: (0 + Σ) / 4096.
-/
import proofs.«431235_j43164421325263_3_alg».proof.Proof.Gen.KernelIdeal.Frame
import proofs.«431235_j43164421325263_3_alg».proof.Proof.Rows
import Idealize.ShloMosaic.Lib.IdealHost
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.HostSide

open Cert.KernelIdeal Cert.KernelIdeal.Gen Idealize.ShloMosaic.ValueIdx Cert.Loss

variable {F : FTy → Type} [FloatOps F] [Named F]

/-- The gather's start indices from the labels: a negative label moved up by 32000, the column reshaped to 4096 × 1 × 1. -/
def kidx (lbl : IVec S4096 32) : IVec S4096x1x1 32 :=
  shapeCast S4096x1x1
    (select (cmpi .slt (broadcastInDim S4096x1 ![0] bcast_S4096_S4096x1_0 lbl) (broadcastInDim S4096x1 ![] bcast_S_S4096x1 (constantI S_ 32 0#32)))
      (addi (broadcastInDim S4096x1 ![0] bcast_S4096_S4096x1_0 lbl) (broadcastInDim S4096x1 ![] bcast_S_S4096x1 (constantI S_ 32 32000#32)))
      (broadcastInDim S4096x1 ![0] bcast_S4096_S4096x1_0 lbl))
    shapeCasts_S4096x1_S4096x1x1

/-- The in-range mask of the moved labels: 0 ≤ index ≤ 31999. -/
def kmask (lbl : IVec S4096 32) : IVec S4096x1 1 :=
  Host.reduce IntOp.andi
    (andi (cmpi .sge (kidx lbl) (broadcastInDim S4096x1x1 ![] bcast_S_S4096x1x1 (constantI S_ 32 0#32)))
      (cmpi .sle (kidx lbl) (broadcastInDim S4096x1x1 ![0, 1, 2] bcast_S1x1x1_S4096x1x1_0_1_2 (broadcastInDim S1x1x1 ![2] bcast_S1_S1x1x1_2 (constantI S1 32 31999#32)))))
    (constantI S_ 1 1#1) reducesTo_S4096x1x1_S4096x1_d2 h_S_

variable (m : (ℓ : Loc nD τ sig) → Buf (Elt F) ℓ)

/-- The label logits as the region finds them: the gather of the logits at the moved labels where the mask is set, the NaN
    pattern elsewhere. -/
theorem xlbl_eq (c : Dev nD) :
    V m c main_v1
      = select (kmask (m ((c : Thread nD τ).loc main_arg1)))
          (Host.gather gather_S4096x32000_S4096x1x1_S4096x1_n_1_0_0_1_2_11 (m ((c : Thread nD τ).loc main_arg0)) (kidx (m ((c : Thread nD τ).loc main_arg1))))
          (broadcastInDim S4096x1 ![] bcast_S_S4096x1 (constant S_ .f32 0x7FC00000#32)) := by
  -- run the operations before the region in order: each result buffer holds its operation's value on the earlier
  -- buffers, and the two inputs are as launched; what comes out is the composition `kidx` / `kmask` spell
  dsimp only [Gen.V, Gen.V0]
  simp only [Gen.hostOps0, Gen.hostOps0_1, List.flatten_cons, List.flatten_nil, List.append_nil, List.cons_append,
    List.nil_append]
  after_results_simp
  rfl

/-- After the region, the first scalar result is the mean over the rows of the region's first result array. -/
theorem loss_tail (c : Dev nD) :
    Pipeline.afterTail₀ cfgs (dats m) 0 (V0 m) [hostOps1] c main_v4
      = Host.divf (Host.reduceAdd ((dats m 0 c).arrAt 2 cfg0.N) (constant S_ .f32 0x00000000#32) reducesTo_S4096x1_S_d0_1 h_S_)
          (constant S_ .f32 0x45800000#32) := by
  unfold Pipeline.afterTail₀
  show StableHlo.after hostOps1 _ (Proc.devRef .tc main_v4) = _
  -- the quotient's operands are the sum's and the constant's buffers; the sum reads the region's first result array
  after_results
  -- which holds what the pipeline left in it
  have hw := Pipeline.withArrays_arr spec0 launch0.win.arr_inj c (V0 m c) (fun w => (dats m 0 c).arrAt w cfg0.N) 2
  rw [← hw]

/-- After the region, the second scalar result is the mean over the rows of the region's second result array. -/
theorem std_tail (c : Dev nD) :
    Pipeline.afterTail₀ cfgs (dats m) 0 (V0 m) [hostOps1] c main_v6
      = Host.divf (Host.reduceAdd ((dats m 0 c).arrAt 3 cfg0.N) (constant S_ .f32 0x00000000#32) reducesTo_S4096x1_S_d0_1 h_S_)
          (constant S_ .f32 0x45800000#32) := by
  unfold Pipeline.afterTail₀
  show StableHlo.after hostOps1 _ (Proc.devRef .tc main_v6) = _
  -- the quotient's operands are the sum's and the constant's buffers; the sum reads the region's second result array
  after_results
  -- which holds what the pipeline left in it
  have hw := Pipeline.withArrays_arr spec0 launch0.win.arr_inj c (V0 m c) (fun w => (dats m 0 c).arrAt w cfg0.N) 3
  rw [← hw]

/-- On the extended reals that mean is (0 + Σ over the rows) / 4096. -/
theorem mean_col (A : FVec Ideal S4096x1 .f32) (i : S_.Idx) :
    Host.divf (F := Ideal) (Host.reduceAdd A (constant S_ .f32 0x00000000#32) reducesTo_S4096x1_S_d0_1 h_S_) (constant S_ .f32 0x45800000#32) i
      = meanRows (fun r => A (ix2 r 0)) := by
  show Ideal.div (Host.reduceAdd A (constant S_ .f32 0x00000000#32) reducesTo_S4096x1_S_d0_1 h_S_ i)
      (constant (F := Ideal) S_ .f32 0x45800000#32 i) = _
  -- a sum into the rank-0 result is the initial value plus the sum over every entry; the entries of a column are its rows
  rw [hostReduceAdd_apply, Ideal.hostReduceAdd_total _ (fun b => b.elim0), constant_apply, constant_apply, sum_col]
  rfl

end Cert.KernelIdeal.HostSide

end
-- ==== Proof.KValue.lean ====
/-
  The kernel program's run, read: every weakly fair execution ends with the logits unchanged, the first scalar result at the
  mean over the rows of each row's negative log-likelihood, and the second at the mean of each row's standard deviation —
  the region's two result arrays (one value per row) averaged by the host operations after it.
-/
import proofs.«431235_j43164421325263_3_alg».proof.Proof.KFinal
import proofs.«431235_j43164421325263_3_alg».proof.Proof.KHost

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.KernelIdeal.Inv Cert.KernelIdeal.Final Cert.KernelIdeal.HostSide Cert.Loss

variable (m : (ℓ : Loc nD τ sig) → Buf (Elt Ideal) ℓ) (ρ : Dev nD → PrngReg)

/-- The mean over the rows of the first result array. -/
theorem loss_value (c : Dev nD) :
    Pipeline.afterTail₀ cfgs (dats m) 0 (V0 m) [hostOps1] c main_v4 = fun _ => meanRows (nllRow m c) := by
  rw [loss_tail, final2]
  funext i
  rw [mean_col]
  rfl

/-- The mean over the rows of the second result array. -/
theorem std_value (c : Dev nD) :
    Pipeline.afterTail₀ cfgs (dats m) 0 (V0 m) [hostOps1] c main_v6 = fun _ => meanRows (stdRow m c) := by
  rw [std_tail, final3]
  funext i
  rw [mean_col]
  rfl

/-- THE RUN: the results named, the arguments unchanged. -/
theorem run : θ_run defs (onTc (τ := τ) (main (F := Ideal))) ⟨m, fun _ => 0, ρ⟩ fun r => ∀ c : Dev nD,
      r.2.mem ((c : Thread nD τ).loc main_arg0) = m ((c : Thread nD τ).loc main_arg0)
      ∧ r.2.mem ((c : Thread nD τ).loc main_v4) = (fun _ => meanRows (nllRow m c))
      ∧ r.2.mem ((c : Thread nD τ).loc main_v6) = (fun _ => meanRows (stdRow m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    have a0 : r.2.mem ((c : Thread nD τ).loc main_arg0) = m ((c : Thread nD τ).loc main_arg0) :=
      ((h c).1 0).trans (((dats m 0 c).arrAt_in 0 rfl _).trans ((A_eq m c 0).trans (V_main_arg0 m c)))
    ⟨a0,
     ((h c).2 main_v4 (Pipeline.mem_restRefs_of main_v4 (by decide) (by decide))).trans (loss_value m c),
     ((h c).2 main_v6 (Pipeline.mem_restRefs_of main_v6 (by decide) (by decide))).trans (std_value m c),
     a0,
     ((h c).2 main_arg1 (Pipeline.mem_restRefs_of main_arg1 (by decide) (by decide))).trans (W_main_arg1 m (dats m) c)⟩)
    (run_main m ρ)

end Cert.KernelIdeal.RunValue

end
-- ==== Proof.RefRows.lean ====
/-
  The reference's two scalar results, row by row: the mean over the rows of the negated log-softmax at the
  label's position (the NaN pattern where the label is outside the row), and the mean over the rows of the
  standard deviation of the softmax probabilities with one maximal entry dropped.

  Each operation of the reference is read at an index; a row's quantities are read at the indices (r) and
  (r, c) built from the row number r and the column c, so that every reduction over the columns becomes a
  sum or a fold over `Fin 32000` of the row `rowOf L r`.
-/
import proofs.«431235_j43164421325263_3_alg».proof.Proof.RefReadP
import proofs.«431235_j43164421325263_3_alg».proof.Proof.Rows

noncomputable section

namespace Cert.RefSide

open Cert.ReferenceIdeal Cert.ReferenceIdeal.Gen Cert.ReferenceIdeal.ReadP Idealize.ShloMosaic Idealize.ShloMosaic.ValueIdx Cert.Loss

/-! ## Indices: the rows' and entries' indices under the operations' index maps -/

/-- Inserting the column k into the row index (r) gives the entry index (r, k). -/
theorem lift_row (h : S4096x32000.Reduces [1] S4096) (r : Fin 4096) (k : Fin 32000) :
    h.lift (ix1 r) k = ix2 r k :=
  funext fun a => Fin.ext (by match a with | ⟨0, _⟩ => rfl | ⟨1, _⟩ => rfl)

/-- A broadcast along the columns reads entry (r, c) at (r, 0). -/
theorem idx_v4_ix2 (r : Fin 4096) (c : Fin 32000) : idx_main_call0_v4 (ix2 r c) = ix2 r (0 : Fin 1) :=
  funext fun a => Fin.ext (by match a with | ⟨0, _⟩ => rfl | ⟨1, _⟩ => rfl)

theorem idx_v10_ix2 (r : Fin 4096) (c : Fin 32000) : idx_main_call0_v10 (ix2 r c) = ix2 r (0 : Fin 1) :=
  funext fun a => Fin.ext (by match a with | ⟨0, _⟩ => rfl | ⟨1, _⟩ => rfl)

/-- A broadcast of a per-row value into a column reads (r, 0) at (r). -/
theorem idx_v3_ix2 (r : Fin 4096) : idx_main_call0_v3 (ix2 r (0 : Fin 1)) = ix1 r :=
  funext fun a => Fin.ext (by match a with | ⟨0, _⟩ => rfl)

theorem idx_v8_ix2 (r : Fin 4096) : idx_main_call0_v8 (ix2 r (0 : Fin 1)) = ix1 r :=
  funext fun a => Fin.ext (by match a with | ⟨0, _⟩ => rfl)

/-- The sums over the columns read row (r) at the entries (r, k). -/
theorem idx_v7_ix1 (r : Fin 4096) (k : Fin 32000) : idx_main_call0_v7 (ix1 r) k = ix2 r k :=
  funext fun a => Fin.ext (by match a with | ⟨0, _⟩ => rfl | ⟨1, _⟩ => rfl)

theorem idx_v9_ix1 (r : Fin 4096) (k : Fin 32000) : idx_main_v9 (ix1 r) k = ix2 r k :=
  funext fun a => Fin.ext (by match a with | ⟨0, _⟩ => rfl | ⟨1, _⟩ => rfl)

theorem idx_v11_ix1 (r : Fin 4096) (k : Fin 32000) : idx_main_v11 (ix1 r) k = ix2 r k :=
  funext fun a => Fin.ext (by match a with | ⟨0, _⟩ => rfl | ⟨1, _⟩ => rfl)

/-- The reshape of the 4096 × 1 column into a vector reads (r) at (r, 0). -/
theorem idx_v3main_ix1 (r : Fin 4096) : idx_main_v3 (ix1 r) = ix2 r (0 : Fin 1) :=
  funext fun a => Fin.ext (by
    match a with
    | ⟨0, _⟩ => exact Nat.div_one _
    | ⟨1, _⟩ => rfl)

/-- The indices of a vector of 4096 entries are its row numbers … -/
def rowsEquiv : S4096.Idx ≃ Fin 4096 where
  toFun i := i 0
  invFun r := ix1 r
  left_inv i := (eq_ix1 i).symm
  right_inv _ := rfl

/-- … so a sum over them is the sum over the rows. -/
theorem sum_rows {M : Type*} [AddCommMonoid M] (f : S4096.Idx → M) : ∑ i, f i = ∑ r : Fin 4096, f (ix1 r) := by
  rw [← Equiv.sum_comp rowsEquiv.symm f]
  rfl

/-- A maximum over the columns, read at row (r): the fold of `max` from the initial value over the row's entries. -/
theorem rowfold (x : S4096x32000.Idx → EReal) (init : S_.Idx → EReal) (r : Fin 4096) :
    Host.reduce (FloatOps.maximumf (F := Ideal) (φ := .f32)) x init reducesTo_S4096x32000_S4096_d1 h_S_ (ix1 r)
      = (Finset.univ : Finset (Fin 32000)).fold max (init (Shape.Idx.first h_S_)) (fun k => x (ix2 r k)) := by
  have h : S4096x32000.Reduces [1] S4096 := by decide
  have hf : (x ∘ h.lift (ix1 r)) = fun k : Fin 32000 => x (ix2 r k) := funext fun k => congrArg x (lift_row h r k)
  rw [Host.reduce_eq_fold_single (FloatOps.maximumf (F := Ideal) (φ := .f32)) x init reducesTo_S4096x32000_S4096_d1 h h_S_ (ix1 r), hf]
  rfl

/-! ## The log-softmax, row by row -/

/-- The row maximum as the log-softmax takes it. -/
theorem rowmax_apply (L : (⟨S4096x32000, .f32⟩ : BufTy).Contents (Elt Ideal)) (r : Fin 4096) :
    val_main_call0_v2 (F := Ideal) L (ix1 r) = rMax (rowOf L r) := by
  rw [val_main_call0_v2_apply, val_main_call0_v1_apply, val_main_call0_cst_0_apply]
  unfold val_main_call0_v0
  rw [rowfold]
  rfl

/-- The logits less the row maximum. -/
theorem shifted_apply (L : (⟨S4096x32000, .f32⟩ : BufTy).Contents (Elt Ideal)) (r : Fin 4096) (c : Fin 32000) :
    val_main_call0_v5 (F := Ideal) L (ix2 r c) = rowOf L r c - rMax (rowOf L r) := by
  rw [val_main_call0_v5_apply, val_main_call0_v4_apply, idx_v4_ix2, val_main_call0_v3_apply, idx_v3_ix2, rowmax_apply]
  rfl

/-- The row's sum of exponentials. -/
theorem rowsum_apply (L : (⟨S4096x32000, .f32⟩ : BufTy).Contents (Elt Ideal)) (r : Fin 4096) :
    val_main_call0_v7 (F := Ideal) L (ix1 r) = rS (rowOf L r) := by
  rw [val_main_call0_v7_apply, val_main_call0_cst_1_apply]
  unfold rS
  refine congrArg (_ + ·) (Finset.sum_congr rfl fun k _ => ?_)
  rw [idx_v7_ix1, val_main_call0_v6_apply, shifted_apply]
  rfl

/-- The reference's log-softmax array, entry (r, c): the row's log-softmax at column c. -/
theorem logp_apply (L : (⟨S4096x32000, .f32⟩ : BufTy).Contents (Elt Ideal)) (r : Fin 4096) (c : Fin 32000) :
    val_main_v0 (F := Ideal) L (ix2 r c) = logp (rowOf L r) c := by
  rw [val_main_v0_apply, shifted_apply, val_main_call0_v10_apply, idx_v10_ix2, val_main_call0_v9_apply,
    val_main_call0_v8_apply, idx_v8_ix2, rowsum_apply]
  rw [Ideal.hostUnary_log_def, Ideal.subf_def]
  rfl

/-! ## The take-along and the first result -/

/-- What the reference's take-along hands row j: the log-softmax array at the gather's operand position where the
    label's in-range mask is set, else the NaN pattern. -/
theorem take_apply (L : (⟨S4096x32000, .f32⟩ : BufTy).Contents (Elt Ideal)) (lbl : (⟨S4096, .i32⟩ : BufTy).Contents (Elt Ideal))
    (j : S4096x1.Idx) :
    val_main_v2 (F := Ideal) L lbl j
      = Scalar.select (val_main_call1_v12 (F := Ideal) lbl j)
          (val_main_v0 (F := Ideal) L (gather_S4096x32000_S4096x1x1_S4096x1_n_1_0_0_1_2_11.operandIdx j (val_main_call1_v5 (F := Ideal) lbl)))
          fNaN := by
  rw [val_main_v2_apply, val_main_call1_v14_apply, val_main_call1_cst_apply]
  unfold val_main_call1_v13 Host.gather
  rfl

/-- The first scalar result: the mean over the rows of the negated take-along. -/
theorem loss_eq (L : (⟨S4096x32000, .f32⟩ : BufTy).Contents (Elt Ideal)) (lbl : (⟨S4096, .i32⟩ : BufTy).Contents (Elt Ideal)) (i : S_.Idx) :
    val_main_v6 (F := Ideal) L lbl i = meanRows (fun r => -(val_main_v2 (F := Ideal) L lbl (ix2 r 0))) := by
  rw [val_main_v6_apply, val_main_cst_0_apply, val_main_v5_apply, val_main_cst_apply, sum_rows,
    Finset.sum_congr rfl (fun r _ => show val_main_v4 (F := Ideal) L lbl (ix1 r) = -(val_main_v2 (F := Ideal) L lbl (ix2 r 0)) by
      rw [val_main_v4_apply, val_main_v3_apply, idx_v3main_ix1]; rfl)]
  rfl

/-! ## The probabilities' standard deviation, row by row -/

/-- The probabilities array, entry (r, c). -/
theorem prob_apply (L : (⟨S4096x32000, .f32⟩ : BufTy).Contents (Elt Ideal)) (r : Fin 4096) (c : Fin 32000) :
    val_main_v7 (F := Ideal) L (ix2 r c) = prob (rowOf L r) c := by
  rw [val_main_v7_apply, logp_apply]
  rfl

/-- The row's largest probability. -/
theorem pmax_apply (L : (⟨S4096x32000, .f32⟩ : BufTy).Contents (Elt Ideal)) (r : Fin 4096) :
    val_main_v8 (F := Ideal) L (ix1 r) = (Finset.univ : Finset (Fin 32000)).fold max fNegInf (prob (rowOf L r)) := by
  have hf : (fun k : Fin 32000 => val_main_v7 (F := Ideal) L (ix2 r k)) = prob (rowOf L r) := funext (prob_apply L r)
  unfold val_main_v8
  rw [rowfold, hf]
  rfl

/-- The row's sum of probabilities. -/
theorem psum_apply (L : (⟨S4096x32000, .f32⟩ : BufTy).Contents (Elt Ideal)) (r : Fin 4096) :
    val_main_v9 (F := Ideal) L (ix1 r) = f0 + ∑ c : Fin 32000, prob (rowOf L r) c := by
  rw [val_main_v9_apply, val_main_cst_2_apply]
  refine congrArg (_ + ·) (Finset.sum_congr rfl fun k _ => ?_)
  rw [idx_v9_ix1, prob_apply]

/-- The row's sum of squared probabilities. -/
theorem psq_apply (L : (⟨S4096x32000, .f32⟩ : BufTy).Contents (Elt Ideal)) (r : Fin 4096) :
    val_main_v11 (F := Ideal) L (ix1 r) = f0 + ∑ c : Fin 32000, prob (rowOf L r) c * prob (rowOf L r) c := by
  rw [val_main_v11_apply, val_main_cst_3_apply]
  refine congrArg (_ + ·) (Finset.sum_congr rfl fun k _ => ?_)
  rw [idx_v11_ix1, val_main_v10_apply, prob_apply]
  rfl

/-- The row's standard deviation. -/
theorem std_apply (L : (⟨S4096x32000, .f32⟩ : BufTy).Contents (Elt Ideal)) (r : Fin 4096) :
    val_main_v26 (F := Ideal) L (ix1 r) = stdR (rowOf L r) := by
  rw [val_main_v26_apply, val_main_v25_apply, val_main_v24_apply, val_main_cst_8_apply, val_main_v23_apply,
    val_main_v22_apply, val_main_v21_apply, val_main_cst_6_apply, val_main_cst_7_apply, val_main_v20_apply,
    val_main_v19_apply, val_main_v18_apply, val_main_v17_apply, val_main_cst_5_apply, val_main_v16_apply,
    val_main_v15_apply, val_main_v14_apply, val_main_v13_apply, val_main_cst_4_apply, val_main_v12_apply,
    psq_apply, psum_apply, pmax_apply]
  rfl

/-- The second scalar result: the mean over the rows of each row's standard deviation. -/
theorem stdmean_eq (L : (⟨S4096x32000, .f32⟩ : BufTy).Contents (Elt Ideal)) (i : S_.Idx) :
    val_main_v28 (F := Ideal) L i = meanRows (fun r => stdR (rowOf L r)) := by
  rw [val_main_v28_apply, val_main_cst_10_apply, val_main_v27_apply, val_main_cst_9_apply, sum_rows,
    Finset.sum_congr rfl (fun r _ => std_apply L r)]
  rfl

end Cert.RefSide

end
-- ==== Proof.SoftmaxMathReal.lean ====
/-
  Real-number facts behind a blockwise softmax walk, stated over an arbitrary finite index type.

  * the bit patterns of the float literals 1, 31999, 31998, 0, −∞ and a quiet NaN as extended reals;
  * the coercion ℝ → EReal commutes with finite sums, and a fold of `max` from −∞ over real entries is the
    entries' maximum;
  * the rescaling identity: for disjoint s and t,
    exp (M − M') · Σ_{s} exp (r − M) + Σ_{t} exp (r − M') = Σ_{s ∪ t} exp (r − M'), and the same for squares.
-/
import Idealize.ShloMosaic.PureOps.Ideal

noncomputable section

namespace Cert.Loss

open Idealize.ShloMosaic

/-! ## The float literals as extended reals -/

theorem ofBits_f0 : Ideal.ofBits .f32 0x00000000#32 = 0 := by simp [Ideal.ofBits, Ideal.ieee]

theorem ofBits_negInf : Ideal.ofBits .f32 0xFF800000#32 = ⊥ := by simp [Ideal.ofBits, Ideal.ieee]

theorem ofBits_nan : Ideal.ofBits .f32 0x7FC00000#32 = ⊥ := by simp [Ideal.ofBits, Ideal.ieee]

/-- 2²³ · 2⁻²³ -/
theorem ofBits_f1 : Ideal.ofBits .f32 0x3F800000#32 = 1 := by
  simp [Ideal.ofBits, Ideal.ieee]
  exact_mod_cast (by norm_num : (8388608 : ℝ) * (2 ^ 23)⁻¹ = 1)

/-- 16383488 · 2⁻⁹ -/
theorem ofBits_fN : Ideal.ofBits .f32 0x46F9FE00#32 = ((31999 : ℝ) : EReal) := by
  simp [Ideal.ofBits, Ideal.ieee]
  exact_mod_cast (by norm_num : (16383488 : ℝ) * (2 ^ 9)⁻¹ = 31999)

/-- 16382976 · 2⁻⁹ -/
theorem ofBits_fNm1 : Ideal.ofBits .f32 0x46F9FC00#32 = ((31998 : ℝ) : EReal) := by
  simp [Ideal.ofBits, Ideal.ieee]
  exact_mod_cast (by norm_num : (16382976 : ℝ) * (2 ^ 9)⁻¹ = 31998)

/-! ## Finite sums and maxima of real entries inside the extended reals -/

section Gen

variable {ι : Type}

/-- The coercion commutes with a finite sum. -/
theorem coe_finset_sum (s : Finset ι) (f : ι → ℝ) :
    ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- `M` is the maximum of `r` over `s`: an upper bound that is attained. -/
def IsMaxOn (s : Finset ι) (r : ι → ℝ) (M : ℝ) : Prop := (∀ c ∈ s, r c ≤ M) ∧ ∃ c ∈ s, r c = M

theorem exists_isMaxOn {s : Finset ι} (hs : s.Nonempty) (r : ι → ℝ) : ∃ M, IsMaxOn s r M := by
  obtain ⟨c, hc, h⟩ := Finset.exists_mem_eq_sup' hs r
  exact ⟨s.sup' hs r, fun c hc => Finset.le_sup' r hc, c, hc, h.symm⟩

/-- The fold of `max` from −∞ over real entries is the coercion of their maximum. -/
theorem fold_max_coe {s : Finset ι} (hs : s.Nonempty) (r : ι → ℝ) :
    s.fold max (⊥ : EReal) (fun c => (r c : EReal)) = ((s.sup' hs r : ℝ) : EReal) := by
  induction hs using Finset.Nonempty.cons_induction with
  | singleton a => simp
  | cons a s ha hs ih =>
    rw [Finset.fold_cons, ih, Finset.sup'_cons hs, EReal.coe_strictMono.monotone.map_max]

theorem IsMaxOn.fold_eq {s : Finset ι} {r : ι → ℝ} {M : ℝ} (h : IsMaxOn s r M) :
    s.fold max (⊥ : EReal) (fun c => (r c : EReal)) = (M : EReal) := by
  obtain ⟨hle, c, hc, rfl⟩ := h
  rw [fold_max_coe ⟨c, hc⟩]
  exact congrArg _ (le_antisymm (Finset.sup'_le _ _ hle) (Finset.le_sup' r hc))

/-- The maximum over a union is the larger of the two maxima. -/
theorem IsMaxOn.union [DecidableEq ι] {s t : Finset ι} {r : ι → ℝ} {M N : ℝ}
    (hs : IsMaxOn s r M) (ht : IsMaxOn t r N) : IsMaxOn (s ∪ t) r (max M N) := by
  refine ⟨fun c hc => ?_, ?_⟩
  · rcases Finset.mem_union.1 hc with h | h
    · exact (hs.1 c h).trans (le_max_left _ _)
    · exact (ht.1 c h).trans (le_max_right _ _)
  · rcases le_total M N with h | h
    · obtain ⟨c, hc, e⟩ := ht.2
      exact ⟨c, Finset.mem_union_right _ hc, by rw [e, max_eq_right h]⟩
    · obtain ⟨c, hc, e⟩ := hs.2
      exact ⟨c, Finset.mem_union_left _ hc, by rw [e, max_eq_left h]⟩

/-- A maximum is unique. -/
theorem IsMaxOn.unique {s : Finset ι} {r : ι → ℝ} {M N : ℝ} (h : IsMaxOn s r M) (h' : IsMaxOn s r N) : M = N := by
  obtain ⟨c, hc, e⟩ := h.2
  obtain ⟨c', hc', e'⟩ := h'.2
  exact le_antisymm (e ▸ h'.1 c hc) (e' ▸ h.1 c' hc')

/-- Σ exp (r − m) over real entries, computed in the extended reals, is the real sum. -/
theorem sum_exp_coe (t : Finset ι) (r : ι → ℝ) (m : ℝ) :
    ∑ c ∈ t, Ideal.exp ((r c : EReal) - (m : EReal)) = ((∑ c ∈ t, Real.exp (r c - m) : ℝ) : EReal) := by
  rw [coe_finset_sum]
  exact Finset.sum_congr rfl fun c _ => by rw [← EReal.coe_sub, Ideal.exp_coe]

/-- Σ exp (r − m)² likewise. -/
theorem sum_exp_sq_coe (t : Finset ι) (r : ι → ℝ) (m : ℝ) :
    ∑ c ∈ t, Ideal.exp ((r c : EReal) - (m : EReal)) * Ideal.exp ((r c : EReal) - (m : EReal))
      = ((∑ c ∈ t, Real.exp (r c - m) * Real.exp (r c - m) : ℝ) : EReal) := by
  rw [coe_finset_sum]
  exact Finset.sum_congr rfl fun c _ => by rw [← EReal.coe_sub, Ideal.exp_coe, ← EReal.coe_mul]

/-- Rescaling a running sum to a new reference point and adding a disjoint block's terms. -/
theorem rescale_sum [DecidableEq ι] {s t : Finset ι} (hd : Disjoint s t) (r : ι → ℝ) (M M' : ℝ) :
    Ideal.exp ((M : EReal) - (M' : EReal)) * ((∑ c ∈ s, Real.exp (r c - M) : ℝ) : EReal)
        + ∑ c ∈ t, Ideal.exp ((r c : EReal) - (M' : EReal))
      = ((∑ c ∈ s ∪ t, Real.exp (r c - M') : ℝ) : EReal) := by
  rw [sum_exp_coe, ← EReal.coe_sub, Ideal.exp_coe, ← EReal.coe_mul, ← EReal.coe_add, Finset.sum_union hd,
    Finset.mul_sum]
  congr 2
  exact Finset.sum_congr rfl fun c _ => by rw [← Real.exp_add]; congr 1; ring

/-- The same for the running sum of squares, rescaled by the square of the factor. -/
theorem rescale_sum_sq [DecidableEq ι] {s t : Finset ι} (hd : Disjoint s t) (r : ι → ℝ) (M M' : ℝ) :
    (Ideal.exp ((M : EReal) - (M' : EReal)) * Ideal.exp ((M : EReal) - (M' : EReal)))
          * ((∑ c ∈ s, Real.exp (r c - M) * Real.exp (r c - M) : ℝ) : EReal)
        + ∑ c ∈ t, Ideal.exp ((r c : EReal) - (M' : EReal)) * Ideal.exp ((r c : EReal) - (M' : EReal))
      = ((∑ c ∈ s ∪ t, Real.exp (r c - M') * Real.exp (r c - M') : ℝ) : EReal) := by
  rw [sum_exp_sq_coe, ← EReal.coe_sub, Ideal.exp_coe, ← EReal.coe_mul, ← EReal.coe_mul, ← EReal.coe_add,
    Finset.sum_union hd, Finset.mul_sum]
  congr 2
  exact Finset.sum_congr rfl fun c _ => by
    simp only [← Real.exp_add]; congr 1; ring

/-- From the empty start (maximum −∞, sum 0) the first block's sum is just the block's terms. -/
theorem first_sum (t : Finset ι) (r : ι → ℝ) (M' : ℝ) :
    Ideal.exp ((⊥ : EReal) - (M' : EReal)) * 0 + ∑ c ∈ t, Ideal.exp ((r c : EReal) - (M' : EReal))
      = ((∑ c ∈ t, Real.exp (r c - M') : ℝ) : EReal) := by
  rw [sum_exp_coe, mul_zero, zero_add]

theorem first_sum_sq (t : Finset ι) (r : ι → ℝ) (M' : ℝ) :
    (Ideal.exp ((⊥ : EReal) - (M' : EReal)) * Ideal.exp ((⊥ : EReal) - (M' : EReal))) * 0
        + ∑ c ∈ t, Ideal.exp ((r c : EReal) - (M' : EReal)) * Ideal.exp ((r c : EReal) - (M' : EReal))
      = ((∑ c ∈ t, Real.exp (r c - M') * Real.exp (r c - M') : ℝ) : EReal) := by
  rw [sum_exp_sq_coe, mul_zero, zero_add]

end Gen

end Cert.Loss

end
-- ==== Proof.SoftmaxMath.lean ====
/-
  The analysis behind the loss kernel: walking a row of real logits block by block with a running maximum and
  rescaled running sums ends at the row's maximum and at Σ exp (x − max), Σ exp (x − max)²; and from those the
  kernel's shortcuts — the largest softmax probability is 1 / Σ exp (x − max), the probabilities sum to 1 — give
  the reference's negative log-likelihood and standard deviation exactly.
-/
import proofs.«431235_j43164421325263_3_alg».proof.Proof.Spec
import proofs.«431235_j43164421325263_3_alg».proof.Proof.SoftmaxMathReal

noncomputable section

namespace Cert.Loss

open Idealize.ShloMosaic

/-! ## The literals -/

theorem f0_eq : f0 = 0 := ofBits_f0
theorem f1_eq : f1 = 1 := ofBits_f1
theorem fN_eq : fN = ((31999 : ℝ) : EReal) := ofBits_fN
theorem fNm1_eq : fNm1 = ((31998 : ℝ) : EReal) := ofBits_fNm1
theorem fNegInf_eq : fNegInf = ⊥ := ofBits_negInf

/-- The quiet-NaN pattern reads as −∞. -/
theorem fNaN_eq : fNaN = ⊥ := ofBits_nan

/-- 31999 − 1 = 31998. -/
theorem fN_sub_f1 : fN - f1 = fNm1 := by
  rw [fN_eq, f1_eq, fNm1_eq, ← EReal.coe_one, ← EReal.coe_sub]
  norm_num

theorem coe_max (a b : ℝ) : ((max a b : ℝ) : EReal) = max (a : EReal) (b : EReal) :=
  EReal.coe_strictMono.monotone.map_max

/-! ## The row's blocks as sets of columns -/

/-- The columns of block `k`: q ↦ 6400·k + q. -/
def blk (k : ℕ) (hk : k < 5) : Fin 6400 ↪ Fin 32000 where
  toFun q := ⟨6400 * k + q.val, by have := q.isLt; omega⟩
  inj' a b h := by
    have h' : 6400 * k + a.val = 6400 * k + b.val := congrArg Fin.val h
    exact Fin.ext (by omega)

theorem blk_val (k : ℕ) (hk : k < 5) (q : Fin 6400) : (blk k hk q).val = 6400 * k + q.val := rfl

/-- The columns before block `k`. -/
def cols (k : ℕ) : Finset (Fin 32000) := Finset.univ.filter fun c => c.val < 6400 * k

theorem mem_cols (k : ℕ) (c : Fin 32000) : c ∈ cols k ↔ c.val < 6400 * k := by
  simp [cols]

theorem cols_zero : cols 0 = ∅ := by
  ext c; simp [mem_cols]

theorem cols_five : cols 5 = Finset.univ := by
  ext c; have := c.isLt; simp [mem_cols]

theorem cols_succ (k : ℕ) (hk : k < 5) : cols (k + 1) = cols k ∪ Finset.univ.map (blk k hk) := by
  ext c
  rw [Finset.mem_union, mem_cols, mem_cols, Finset.mem_map]
  constructor
  · intro h
    by_cases h' : c.val < 6400 * k
    · exact Or.inl h'
    · exact Or.inr ⟨⟨c.val - 6400 * k, by omega⟩, Finset.mem_univ _, Fin.ext (by rw [blk_val]; simp only []; omega)⟩
  · rintro (h | ⟨q, _, rfl⟩)
    · omega
    · have := q.isLt; rw [blk_val]; omega

theorem cols_disj (k : ℕ) (hk : k < 5) : Disjoint (cols k) (Finset.univ.map (blk k hk)) := by
  rw [Finset.disjoint_left]
  intro c hc hm
  rw [Finset.mem_map] at hm
  obtain ⟨q, _, rfl⟩ := hm
  rw [mem_cols, blk_val] at hc
  omega

/-- A block of a row of real logits, read through its columns. -/
theorem rowBlock_coe (r : Fin 32000 → ℝ) (k : ℕ) (hk : k < 5) :
    rowBlock (fun c => (r c : EReal)) k = fun q => ((r (blk k hk q) : ℝ) : EReal) := by
  funext q
  have := q.isLt
  rw [rowBlock, dif_pos (by omega)]
  rfl

/-! ## The carried triple over a set of columns -/

/-- The triple carried over the columns `s`: their maximum `M`, Σ exp (r − M) and Σ exp (r − M)². -/
def Inv (r : Fin 32000 → ℝ) (s : Finset (Fin 32000)) (st : St) : Prop :=
  ∃ M : ℝ, IsMaxOn s r M ∧
    st = ((M : EReal), ((∑ c ∈ s, Real.exp (r c - M) : ℝ) : EReal),
      ((∑ c ∈ s, Real.exp (r c - M) * Real.exp (r c - M) : ℝ) : EReal))

theorem blk_nonempty (e : Fin 6400 ↪ Fin 32000) : (Finset.univ.map e).Nonempty :=
  ⟨e ⟨0, by norm_num⟩, Finset.mem_map_of_mem _ (Finset.mem_univ _)⟩

/-- A block's maximum is the maximum of `r` over the block's columns. -/
theorem bMax_coe (r : Fin 32000 → ℝ) (e : Fin 6400 ↪ Fin 32000) {N : ℝ} (h : IsMaxOn (Finset.univ.map e) r N) :
    bMax (fun q => (r (e q) : EReal)) = (N : EReal) := by
  rw [bMax, fNegInf_eq, ← h.fold_eq, Finset.fold_map]
  rfl

/-- The first block, from (−∞, 0, 0). -/
theorem inv_first (r : Fin 32000 → ℝ) (e : Fin 6400 ↪ Fin 32000) :
    Inv r (Finset.univ.map e) (upd st0 (fun q => (r (e q) : EReal))) := by
  obtain ⟨N, hN⟩ := exists_isMaxOn (blk_nonempty e) r
  refine ⟨N, hN, ?_⟩
  have h1 := first_sum (Finset.univ.map e) r N
  have h2 := first_sum_sq (Finset.univ.map e) r N
  rw [Finset.sum_map Finset.univ e (fun c => Ideal.exp ((r c : EReal) - (N : EReal)))] at h1
  rw [Finset.sum_map Finset.univ e
    (fun c => Ideal.exp ((r c : EReal) - (N : EReal)) * Ideal.exp ((r c : EReal) - (N : EReal)))] at h2
  unfold upd
  rw [bMax_coe r e hN]
  simp only [st0]
  rw [max_eq_right (bot_le : (⊥ : EReal) ≤ (N : EReal))]
  exact Prod.ext rfl (Prod.ext h1 h2)

/-- A later block: the maximum grows to the larger one and both sums are rescaled to it. -/
theorem inv_step (r : Fin 32000 → ℝ) (s : Finset (Fin 32000)) (e : Fin 6400 ↪ Fin 32000)
    (hd : Disjoint s (Finset.univ.map e)) (st : St) (h : Inv r s st) :
    Inv r (s ∪ Finset.univ.map e) (upd st (fun q => (r (e q) : EReal))) := by
  obtain ⟨M, hM, rfl⟩ := h
  obtain ⟨N, hN⟩ := exists_isMaxOn (blk_nonempty e) r
  refine ⟨max M N, hM.union hN, ?_⟩
  have h1 := rescale_sum hd r M (max M N)
  have h2 := rescale_sum_sq hd r M (max M N)
  rw [Finset.sum_map Finset.univ e (fun c => Ideal.exp ((r c : EReal) - ((max M N : ℝ) : EReal)))] at h1
  rw [Finset.sum_map Finset.univ e
    (fun c => Ideal.exp ((r c : EReal) - ((max M N : ℝ) : EReal))
      * Ideal.exp ((r c : EReal) - ((max M N : ℝ) : EReal)))] at h2
  unfold upd
  rw [bMax_coe r e hN]
  simp only []
  rw [← coe_max]
  exact Prod.ext rfl (Prod.ext h1 h2)

/-- After k + 1 blocks the triple is the one over the first 6400·(k + 1) columns. -/
theorem inv_stAfter (r : Fin 32000 → ℝ) :
    ∀ k, (hk : k < 5) → Inv r (cols (k + 1)) (stAfter (fun c => (r c : EReal)) (k + 1))
  | 0, hk => by
    rw [cols_succ 0 hk, cols_zero, Finset.empty_union]
    show Inv r _ (upd st0 (rowBlock _ 0))
    rw [rowBlock_coe r 0 hk]
    exact inv_first r (blk 0 hk)
  | k + 1, hk => by
    rw [cols_succ (k + 1) hk]
    show Inv r _ (upd (stAfter _ (k + 1)) (rowBlock _ (k + 1)))
    rw [rowBlock_coe r (k + 1) hk]
    exact inv_step r _ (blk (k + 1) hk) (cols_disj _ hk) _ (inv_stAfter r k (by omega))

/-- The final triple of a row of real logits. -/
theorem final_state (x : Row) (hx : IsReal x) :
    ∃ r : Fin 32000 → ℝ, x = (fun c => (r c : EReal)) ∧ ∃ M : ℝ, IsMaxOn Finset.univ r M ∧
      stAfter x 5 = ((M : EReal), ((∑ c, Real.exp (r c - M) : ℝ) : EReal),
        ((∑ c, Real.exp (r c - M) * Real.exp (r c - M) : ℝ) : EReal)) := by
  choose r hr using hx
  obtain rfl : x = fun c => (r c : EReal) := funext hr
  refine ⟨r, rfl, ?_⟩
  have h := inv_stAfter r 4 (by norm_num)
  rw [cols_five] at h
  exact h

/-! ## The reference's whole-row quantities -/

section Final

variable (r : Fin 32000 → ℝ) (M : ℝ)

theorem S_pos : 0 < ∑ c : Fin 32000, Real.exp (r c - M) :=
  Finset.sum_pos (fun c _ => Real.exp_pos _) ⟨⟨0, by norm_num⟩, Finset.mem_univ _⟩

variable (hM : IsMaxOn Finset.univ r M)
include hM

theorem rMax_coe : rMax (fun c => (r c : EReal)) = (M : EReal) := by
  rw [rMax, fNegInf_eq, hM.fold_eq, max_eq_right bot_le]

theorem rS_coe : rS (fun c => (r c : EReal)) = ((∑ c, Real.exp (r c - M) : ℝ) : EReal) := by
  rw [rS, f0_eq, zero_add, rMax_coe r M hM, sum_exp_coe]

theorem logp_coe (c : Fin 32000) :
    logp (fun c => (r c : EReal)) c = ((r c - M - Real.log (∑ c, Real.exp (r c - M)) : ℝ) : EReal) := by
  rw [logp, rMax_coe r M hM, rS_coe r M hM, Ideal.log_coe, if_neg (not_le.2 (S_pos r M)), ← EReal.coe_sub,
    ← EReal.coe_sub]

/-- A softmax probability: exp (r − M) / Σ. -/
theorem prob_coe (c : Fin 32000) :
    prob (fun c => (r c : EReal)) c
      = ((Real.exp (r c - M) * (∑ c, Real.exp (r c - M))⁻¹ : ℝ) : EReal) := by
  rw [prob, logp_coe r M hM, Ideal.exp_coe, Real.exp_sub, Real.exp_log (S_pos r M), div_eq_mul_inv]

theorem prob_fun :
    prob (fun c => (r c : EReal))
      = fun c => ((Real.exp (r c - M) * (∑ c, Real.exp (r c - M))⁻¹ : ℝ) : EReal) :=
  funext (prob_coe r M hM)

/-- The probabilities sum to 1. -/
theorem sum_prob : f0 + ∑ c, prob (fun c => (r c : EReal)) c = f1 := by
  rw [prob_fun r M hM, f0_eq, zero_add, ← coe_finset_sum, f1_eq, ← EReal.coe_one, ← Finset.sum_mul,
    mul_inv_cancel₀ (S_pos r M).ne']

/-- The largest probability is 1 / Σ, attained at a maximal logit. -/
theorem max_prob :
    (Finset.univ : Finset (Fin 32000)).fold max fNegInf (prob (fun c => (r c : EReal)))
      = Ideal.div f1 ((∑ c, Real.exp (r c - M) : ℝ) : EReal) := by
  have hp : IsMaxOn Finset.univ (fun c => Real.exp (r c - M) * (∑ c, Real.exp (r c - M))⁻¹)
      (1 / ∑ c, Real.exp (r c - M)) := by
    have hi : 0 ≤ (∑ c, Real.exp (r c - M))⁻¹ := inv_nonneg.2 (S_pos r M).le
    refine ⟨fun c _ => ?_, ?_⟩
    · rw [one_div]
      calc Real.exp (r c - M) * (∑ c, Real.exp (r c - M))⁻¹ ≤ 1 * (∑ c, Real.exp (r c - M))⁻¹ :=
            mul_le_mul_of_nonneg_right (Real.exp_le_one_iff.2 (sub_nonpos.2 (hM.1 c (Finset.mem_univ c)))) hi
        _ = (∑ c, Real.exp (r c - M))⁻¹ := one_mul _
    · obtain ⟨c, _, hc⟩ := hM.2
      exact ⟨c, Finset.mem_univ c, by simp only [hc, sub_self, Real.exp_zero, one_mul, one_div]⟩
  rw [fNegInf_eq, prob_fun r M hM, hp.fold_eq, f1_eq, Ideal.div_coe (S_pos r M).ne', one_mul]

/-- The probabilities' squares sum to Σ₂ / Σ². -/
theorem sum_prob_sq :
    f0 + ∑ c, prob (fun c => (r c : EReal)) c * prob (fun c => (r c : EReal)) c
      = (((∑ c, Real.exp (r c - M) * Real.exp (r c - M) : ℝ) : EReal)
          * Ideal.div f1 ((∑ c, Real.exp (r c - M) : ℝ) : EReal))
        * Ideal.div f1 ((∑ c, Real.exp (r c - M) : ℝ) : EReal) := by
  rw [prob_fun r M hM, f0_eq, zero_add, f1_eq, Ideal.div_coe (S_pos r M).ne', one_mul, ← EReal.coe_mul,
    ← EReal.coe_mul]
  simp only [← EReal.coe_mul]
  rw [← coe_finset_sum, Finset.sum_mul, Finset.sum_mul]
  exact congrArg Real.toEReal (Finset.sum_congr rfl fun c _ => by rw [one_div]; ring)

end Final

/-! ## The two results -/

/-- For a row of real logits and a label inside the row, the kernel's (m + log Σ) − x_label is the negated
    log-softmax at the label. -/
theorem nll_eq (x : Row) (hx : IsReal x) (c : Fin 32000) : nllOf (stAfter x 5) (x c) = -(logp x c) := by
  obtain ⟨r, rfl, M, hM, hst⟩ := final_state x hx
  rw [hst, logp_coe r M hM, nllOf]
  simp only []
  rw [Ideal.log_coe, if_neg (not_le.2 (S_pos r M)), ← EReal.coe_add, ← EReal.coe_sub, ← EReal.coe_neg]
  congr 1
  ring

/-- For a label outside the row both programs read the NaN pattern, −∞ here: the kernel's (m + log Σ) − (−∞)
    and the reference's −(−∞) are both +∞. -/
theorem nll_eq_nan (x : Row) (hx : IsReal x) : nllOf (stAfter x 5) fNaN = -fNaN := by
  obtain ⟨r, rfl, M, hM, hst⟩ := final_state x hx
  rw [hst, fNaN_eq, nllOf]
  simp only []
  rw [Ideal.log_coe, if_neg (not_le.2 (S_pos r M)), ← EReal.coe_add, EReal.coe_sub_bot, EReal.neg_bot]

/-- For a row of real logits the kernel's standard deviation (maximal probability 1/Σ, sum 1) is the reference's. -/
theorem std_eq (x : Row) (hx : IsReal x) : stdOf (stAfter x 5) = stdR x := by
  obtain ⟨r, rfl, M, hM, hst⟩ := final_state x hx
  rw [hst, stdOf, stdR, sum_prob r M hM, max_prob r M hM, sum_prob_sq r M hM, fN_sub_f1]

end Cert.Loss

end
-- ==== Proof.TakeRow.lean ====
/-
  The gather both programs use to pick each row's label entry reads the operand in the result's own row: its
  first axis is a batching axis, so the operand's row coordinate is the result's.
-/
import proofs.«431235_j43164421325263_3_alg».proof.KernelIdeal
import proofs.«431235_j43164421325263_3_alg».proof.ReferenceIdeal
import Idealize.ShloMosaic.Lib.ValueIdx

noncomputable section

namespace Cert.Take

open Idealize.ShloMosaic Idealize.ShloMosaic.ValueIdx

/-- A gather whose operand axis 0 is a batching axis paired with start-indices axis 0, with no offset axes and the
    index vector on axis 2 of rank-3 start indices: the operand's coordinate on axis 0 is the result's.  On a
    batching axis the slice starts at 0 and there is no offset coordinate; what is left is the batching coordinate,
    the result index read on the batch axis in the position of the paired start-indices axis. -/
theorem row_of_batching {s si t : Shape} (d : GatherDims s si t) {w : Nat} (j : t.Idx) (idx : IVec si w)
    (a : Fin s.rank) (a' : Fin t.rank) (ha : a ∈ d.operandBatchingDims)
    (hc : d.batchCoord j a = (j a').val) :
    ((d.operandIdx j idx) a).val = (j a').val := by
  show d.start j idx a + d.batchCoord j a + d.offCoord j a = (j a').val
  rw [d.start_batching j idx a ha, d.offCoord_eq_zero j a (fun h => ((d.mem_sKept a).1 h).2 ha), Nat.zero_add,
    Nat.add_zero, hc]

/-- In the kernel's program: the gathered position lies in the result's row. -/
theorem rowK [Cert.KernelIdeal.Facts₀] (j : Cert.KernelIdeal.S4096x1.Idx) (idx : IVec Cert.KernelIdeal.S4096x1x1 32) :
    ((Cert.KernelIdeal.gather_S4096x32000_S4096x1x1_S4096x1_n_1_0_0_1_2_11.operandIdx j idx) 0).val = (j 0).val := by
  have ha : (0 : Fin Cert.KernelIdeal.S4096x32000.rank)
      ∈ Cert.KernelIdeal.gather_S4096x32000_S4096x1x1_S4096x1_n_1_0_0_1_2_11.operandBatchingDims :=
    List.mem_singleton.mpr rfl
  refine row_of_batching _ j idx 0 0 ha ?_
  unfold GatherDims.batchCoord
  rw [dif_pos ha]
  rfl

/-- In the reference's program: the gathered position lies in the result's row. -/
theorem rowR [Cert.ReferenceIdeal.Facts₀] (j : Cert.ReferenceIdeal.S4096x1.Idx) (idx : IVec Cert.ReferenceIdeal.S4096x1x1 32) :
    ((Cert.ReferenceIdeal.gather_S4096x32000_S4096x1x1_S4096x1_n_1_0_0_1_2_11.operandIdx j idx) 0).val = (j 0).val := by
  have ha : (0 : Fin Cert.ReferenceIdeal.S4096x32000.rank)
      ∈ Cert.ReferenceIdeal.gather_S4096x32000_S4096x1x1_S4096x1_n_1_0_0_1_2_11.operandBatchingDims :=
    List.mem_singleton.mpr rfl
  refine row_of_batching _ j idx 0 0 ha ?_
  unfold GatherDims.batchCoord
  rw [dif_pos ha]
  rfl

/-- The two programs' gathers have the same dimension numbers: they read the same position. -/
theorem operandIdx_eq [Cert.KernelIdeal.Facts₀] [Cert.ReferenceIdeal.Facts₀] (j : Cert.KernelIdeal.S4096x1.Idx)
    (idx : IVec Cert.KernelIdeal.S4096x1x1 32) :
    Cert.KernelIdeal.gather_S4096x32000_S4096x1x1_S4096x1_n_1_0_0_1_2_11.operandIdx j idx
      = Cert.ReferenceIdeal.gather_S4096x32000_S4096x1x1_S4096x1_n_1_0_0_1_2_11.operandIdx j idx := by
  rfl

end Cert.Take

end
-- ==== Proof.Finite.lean ====
/-
  Under the precondition every logit is a real number: the precondition's conjunction over all entries of
  |x| < +∞ holds, and an extended real whose absolute value is below +∞ is neither infinity.
-/
import proofs.«431235_j43164421325263_3_alg».proof.Defs
import proofs.«431235_j43164421325263_3_alg».proof.Proof.Gen.Pre_finite_inputs
import proofs.«431235_j43164421325263_3_alg».proof.Proof.Spec
import Idealize.ShloMosaic.Lib.ReduceAll
import Idealize.ShloMosaic.Lib.ValueIdx
import Idealize.ShloMosaic.Lib.IdealHost
import Idealize.ShloMosaic.PureOps.Ideal.Laws

noncomputable section

namespace Cert.Finite

open Idealize.ShloMosaic Cert.Loss

/-- The pattern of +∞ reads as the top element. -/
theorem ofBits_inf : Ideal.ofBits .f32 0x7F800000#32 = (⊤ : EReal) := by
  simp [Ideal.ofBits, Ideal.ieee]

/-- An extended real whose absolute value max x (−x) lies strictly below +∞ is a real number: at −∞ the
    negation is +∞, at +∞ the entry itself is. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The precondition's function is all ones only if every entry of the logits array is a real number. -/
theorem isReal_of_fn [Cert.Pre_finite_inputs.Facts] (L : FVec Ideal Cert.Pre_finite_inputs.S4096x32000 .f32)
    (lbl : IVec Cert.Pre_finite_inputs.S4096 32)
    (h : Cert.Pre_finite_inputs.fn (F := Ideal) L lbl = fun _ => 1#1) : IsReal L := by
  intro c
  -- the rank-0 result has one index
  haveI : Subsingleton Cert.Pre_finite_inputs.S_.Idx := ⟨fun a b => funext fun d => d.elim0⟩
  -- the conjunction over all entries is 1, so the compared entry at `c` is 1
  have h0 := congrFun h ValueIdx.ix0
  dsimp only [Cert.Pre_finite_inputs.fn] at h0
  have hc := Host.reduce_andi_all _ _ _ _ _ h0 c
  -- read the comparison at `c`: |L c| < the pattern of +∞
  rw [ValueIdx.cmpf_apply, ValueIdx.broadcastInDim_scalar_apply, ValueIdx.constant_apply, Ideal.cmpf_def] at hc
  have habs : (Host.absf L) c = max (L c) (-(L c)) := rfl
  rw [habs, ofBits_inf] at hc
  -- the comparison's word is 1 exactly when the strict inequality holds
  have hlt : max (L c) (-(L c)) < (⊤ : EReal) := by
    by_contra hn
    simp [Ideal.cmp, hn] at hc
  exact real_of_abs_lt_top (L c) hlt

end Cert.Finite

end
-- ==== Proof.Bridge.lean ====
/-
  The two programs row by row. For every row r of finite logits the kernel's negative log-likelihood — of the row's final
  carried triple against the entry the label gather picked — is the reference's negated pick of the row's log-softmax: both
  programs pick with the same mask and at the same position, the position lies in row r itself, and where the label is
  outside the row both read the NaN pattern. The kernel's standard deviation of the row is the reference's.
-/
import proofs.«431235_j43164421325263_3_alg».proof.Proof.KValue
import proofs.«431235_j43164421325263_3_alg».proof.Proof.RefRows
import proofs.«431235_j43164421325263_3_alg».proof.Proof.SoftmaxMath
import proofs.«431235_j43164421325263_3_alg».proof.Proof.TakeRow
import proofs.«431235_j43164421325263_3_alg».proof.Proof.Finite

noncomputable section

open Idealize.ShloMosaic Idealize.ShloMosaic.TcCoe Idealize.SL.Sem Idealize.ShloMosaic.ValueIdx

namespace Cert.Bridge

open Cert.Loss

/-- Picking with a mask bit commutes with the two programs' use of the pick: for a row of real logits, the kernel's
    (m + log Σ) − pick of the logits equals the reference's −pick of the log-softmax, whether the bit selects the row's
    entry at `cp` or the NaN pattern. -/
theorem pick_nll (x : Row) (hx : IsReal x) (b : BitVec 1) (cp : Fin 32000) :
    nllOf (stAfter x 5) (Scalar.select b (x cp) fNaN) = -(Scalar.select b (logp x cp) fNaN) := by
  by_cases hb : b = 1#1
  · subst hb
    rw [select_one, select_one]
    exact nll_eq x hx cp
  · rw [eq_zero_of_ne_one hb, select_zero, select_zero]
    exact nll_eq_nan x hx

/-- Both programs form the in-range mask from the labels by the same operations. -/
theorem mask_eq (lbl : IVec Cert.KernelIdeal.S4096 32) :
    Cert.KernelIdeal.HostSide.kmask lbl = Cert.ReferenceIdeal.ReadP.val_main_call1_v12 (F := Ideal) lbl := rfl

/-- Both programs form the gather's start indices from the labels by the same operations. -/
theorem idx_eq (lbl : IVec Cert.KernelIdeal.S4096 32) :
    Cert.KernelIdeal.HostSide.kidx lbl = Cert.ReferenceIdeal.ReadP.val_main_call1_v5 (F := Ideal) lbl := rfl

/-- A row of an array of reals is a row of reals. -/
theorem isReal_row {L : (⟨2, ![4096, 32000]⟩ : Shape).Idx → EReal} (hL : IsReal L) (r : Fin 4096) : IsReal (rowOf L r) :=
  fun c => hL (ix2 r c)

/-- THE ROW'S FIRST RESULT: the kernel's value from the picked logit is the reference's negated picked log-softmax. -/
theorem row_nll (L : FVec Ideal Cert.KernelIdeal.S4096x32000 .f32) (lbl : IVec Cert.KernelIdeal.S4096 32) (hL : IsReal L) (r : Fin 4096) :
    nllOf (stAfter (rowOf L r) 5)
        (select (Cert.KernelIdeal.HostSide.kmask lbl)
          (Host.gather Cert.KernelIdeal.gather_S4096x32000_S4096x1x1_S4096x1_n_1_0_0_1_2_11 L (Cert.KernelIdeal.HostSide.kidx lbl))
          (broadcastInDim Cert.KernelIdeal.S4096x1 ![] Cert.KernelIdeal.Gen.bcast_S_S4096x1 (constant (F := Ideal) Cert.KernelIdeal.S_ .f32 0x7FC00000#32))
          (ix2 r 0))
      = -(Cert.ReferenceIdeal.ReadP.val_main_v2 (F := Ideal) L lbl (ix2 r 0)) := by
  rw [Cert.RefSide.take_apply, ← mask_eq, ← idx_eq, ← Cert.Take.operandIdx_eq]
  -- the gathered position lies in row r
  obtain ⟨cp, ho⟩ : ∃ cp : Fin 32000,
      Cert.KernelIdeal.gather_S4096x32000_S4096x1x1_S4096x1_n_1_0_0_1_2_11.operandIdx (ix2 r 0) (Cert.KernelIdeal.HostSide.kidx lbl) = ix2 r cp := by
    refine ⟨⟨_, idx2_lt1 (Cert.KernelIdeal.gather_S4096x32000_S4096x1x1_S4096x1_n_1_0_0_1_2_11.operandIdx (ix2 r 0) (Cert.KernelIdeal.HostSide.kidx lbl))⟩, ?_⟩
    refine (eq_ix2 _).trans ?_
    refine congrArg₂ ix2 (Fin.ext ?_) (Fin.ext rfl)
    exact Cert.Take.rowK (ix2 r 0) (Cert.KernelIdeal.HostSide.kidx lbl)
  rw [ho, Cert.RefSide.logp_apply]
  show nllOf (stAfter (rowOf L r) 5) (Scalar.select (Cert.KernelIdeal.HostSide.kmask lbl (ix2 r 0))
      (Host.gather Cert.KernelIdeal.gather_S4096x32000_S4096x1x1_S4096x1_n_1_0_0_1_2_11 L (Cert.KernelIdeal.HostSide.kidx lbl) (ix2 r 0)) fNaN) = _
  unfold Host.gather
  rw [ho]
  exact pick_nll (rowOf L r) (isReal_row hL r) _ cp

end Cert.Bridge

end
-- ==== Proof.LibTypedRef.lean ====
/-
  General lemma: typed references' transports cancel.
  A host function that jax outlined (log_softmax, take_along_axis, …) prints over typed references, whose operations move a
  value to the buffer's own type and back (a cast along the reference's type equation). Reading a line of such operations
  with the library's result lemmas leaves every stage wrapped in `ofBuf (toBuf v)`; this lemma removes the wrapping,
  for any typed reference, with no look at the signature's tables — apply it by `simp only` before comparing the composed term
  with its stages.
-/
import Idealize.ShloMosaic.Lib.StableHlo

noncomputable section

open Idealize.ShloMosaic Idealize.ShloMosaic.StableHlo

namespace Cert.Lib.TypedRef

/-- A value moved to a typed reference's buffer type and back is the value. -/
theorem ofBuf_toBuf {sig : RefSig} {Val : EltTy → Type} {T : BufTy} (x : TRef sig T) (v : T.Contents Val) :
    x.ofBuf (x.toBuf v) = v := by
  unfold TRef.ofBuf TRef.toBuf
  simp only [cast_cast, cast_eq]

end Cert.Lib.TypedRef

end
-- ==== Proof.RefRun.lean ====
/-
  The reference program's run, read back stretch by stretch. Its 76 host operations are four consecutive stretches:
  the log-softmax of the logits; the labels' column and the take-along that picks each row's entry at its label; the mean of
  the negated picks; and the mean over the rows of the standard deviation of the probabilities. Each stretch, run from
  any contents of the buffers, leaves its result at the corresponding stage of the operations' composition and leaves
  alone what it does not write; so after all four the two scalar results are the stages of the launch's logits and
  labels, and the arguments are unchanged.
-/
import proofs.«431235_j43164421325263_3_alg».proof.Proof.RefReadP
import proofs.«431235_j43164421325263_3_alg».proof.Proof.LibTypedRef
import Idealize.ShloMosaic.Lib.Pipeline.Frame

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo Cert.Lib.TypedRef

variable {F : FTy → Type} [FloatOps F]

variable (W : Valuation τ sig (Elt F))

/-! ## The log-softmax -/

set_option maxRecDepth 65536 in
/-- After the first stretch the log-softmax buffer holds the log-softmax stage of the logits found. -/
theorem logsoftmax_v0 : after ops1 W (Proc.devRef .tc main_v0) = val_main_v0 (F := F) (W (Proc.devRef .tc main_arg0)) := by
  after_results
  simp only [ofBuf_toBuf]
  rfl

theorem logsoftmax_arg0 : after ops1 W (Proc.devRef .tc main_arg0) = W (Proc.devRef .tc main_arg0) := by
  after_results_simp

theorem logsoftmax_arg1 : after ops1 W (Proc.devRef .tc main_arg1) = W (Proc.devRef .tc main_arg1) := by
  after_results_simp

/-! ## The take-along -/

set_option maxRecDepth 65536 in
set_option maxHeartbeats 1000000 in
/-- After the second stretch the pick buffer holds the take-along stage of the log-softmax and the labels found. -/
theorem take_v2 (x0 : (⟨S4096x32000, .f32⟩ : BufTy).Contents (Elt F)) (x1 : (⟨S4096, .i32⟩ : BufTy).Contents (Elt F))
    (h0 : W (Proc.devRef .tc main_v0) = val_main_v0 (F := F) x0) (h1 : W (Proc.devRef .tc main_arg1) = x1) :
    after ops2 W (Proc.devRef .tc main_v2) = val_main_v2 (F := F) x0 x1 := by
  after_results_simp
  simp only [ofBuf_toBuf]
  rw [h0, h1]
  rfl

theorem take_v0 : after ops2 W (Proc.devRef .tc main_v0) = W (Proc.devRef .tc main_v0) := by
  after_results_simp

theorem take_arg0 : after ops2 W (Proc.devRef .tc main_arg0) = W (Proc.devRef .tc main_arg0) := by
  after_results_simp

theorem take_arg1 : after ops2 W (Proc.devRef .tc main_arg1) = W (Proc.devRef .tc main_arg1) := by
  after_results_simp

/-! ## The first result -/

/-- After the third stretch the first result holds the mean of the negated picks found. -/
theorem loss_v6 (x0 : (⟨S4096x32000, .f32⟩ : BufTy).Contents (Elt F)) (x1 : (⟨S4096, .i32⟩ : BufTy).Contents (Elt F))
    (h2 : W (Proc.devRef .tc main_v2) = val_main_v2 (F := F) x0 x1) :
    after ops3 W (Proc.devRef .tc main_v6) = val_main_v6 (F := F) x0 x1 := by
  after_results_simp
  rw [h2]
  rfl

theorem loss_v0 : after ops3 W (Proc.devRef .tc main_v0) = W (Proc.devRef .tc main_v0) := by
  after_results_simp

theorem loss_arg0 : after ops3 W (Proc.devRef .tc main_arg0) = W (Proc.devRef .tc main_arg0) := by
  after_results_simp

theorem loss_arg1 : after ops3 W (Proc.devRef .tc main_arg1) = W (Proc.devRef .tc main_arg1) := by
  after_results_simp

/-! ## The second result -/

set_option maxRecDepth 65536 in
/-- After the fourth stretch the second result holds the mean standard deviation of the log-softmax found. -/
theorem std_v28 (x0 : (⟨S4096x32000, .f32⟩ : BufTy).Contents (Elt F))
    (h0 : W (Proc.devRef .tc main_v0) = val_main_v0 (F := F) x0) :
    after ops4 W (Proc.devRef .tc main_v28) = val_main_v28 (F := F) x0 := by
  after_results_simp
  rw [h0]
  rfl

theorem std_v6 : after ops4 W (Proc.devRef .tc main_v6) = W (Proc.devRef .tc main_v6) := by
  after_results_simp

theorem std_arg0 : after ops4 W (Proc.devRef .tc main_arg0) = W (Proc.devRef .tc main_arg0) := by
  after_results_simp

theorem std_arg1 : after ops4 W (Proc.devRef .tc main_arg1) = W (Proc.devRef .tc main_arg1) := by
  after_results_simp

/-! ## All four, one after the other -/

/-- The four stretches in order are the whole list. -/
theorem after_ops : after ops W = after ops4 (after ops3 (after ops2 (after ops1 W))) := by
  show after (ops1 ++ ops2 ++ ops3 ++ ops4) W = _
  rw [StableHlo.after_append, StableHlo.after_append, StableHlo.after_append]

/-- THE RUN: every weakly fair execution ends with the two scalar results at their stages of the launch's logits and labels,
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v6)
          = val_main_v6 (F := F) (m ((c.tc : Thread nD τ).loc main_arg0)) (m ((c.tc : Thread nD τ).loc main_arg1))
      ∧ r.2.mem ((c.tc : Thread nD τ).loc main_v28) = val_main_v28 (F := F) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (ValueP.run (F := F) m ρ)
  have e0 : after ops1 (launchContents m c) (Proc.devRef .tc main_v0)
      = val_main_v0 (F := F) (m ((c.tc : Thread nD τ).loc main_arg0)) := logsoftmax_v0 _
  have a0 : r.2.mem ((c.tc : Thread nD τ).loc main_arg0) = m ((c.tc : Thread nD τ).loc main_arg0) := by
    rw [h c main_arg0, after_ops, std_arg0, loss_arg0, take_arg0, logsoftmax_arg0]
  have a1 : r.2.mem ((c.tc : Thread nD τ).loc main_arg1) = m ((c.tc : Thread nD τ).loc main_arg1) := by
    rw [h c main_arg1, after_ops, std_arg1, loss_arg1, take_arg1, logsoftmax_arg1]
  refine ⟨a0, ?_, ?_, a0, a1⟩
  · rw [h c main_v6, after_ops, std_v6]
    exact loss_v6 _ _ _ (take_v2 _ _ _ e0 (logsoftmax_arg1 _))
  · rw [h c main_v28, after_ops]
    exact std_v28 _ _ ((loss_v0 _).trans ((take_v0 _).trans e0))

end Cert.ReferenceIdeal.RunH

end
-- ==== Proof.lean ====
/-
  The certificate's proof: the loss kernel against its jnp reference.

  Both programs map 4096 rows of 32000 logits and one label per row to two numbers: the mean over the rows of the negative
  log-likelihood of the row's softmax at its label, and the mean over the rows of the standard deviation of the row's softmax
  probabilities with one maximal entry dropped. The reference computes each row's log-softmax whole. The kernel walks a
  row in five blocks of 6400 columns with a running maximum m and running sums of exp (x − m) and exp (x − m)², rescaled
  whenever the maximum moves, and from the final triple takes the maximal probability to be 1 / Σ exp (x − m) and the
  probabilities' sum to be 1. Its running maximum starts from a finite stand-in for −∞ that the idealized kernel names −∞:
  the first block's maximum then replaces it and the rescaling factor exp (−∞ − m) is 0 (the one `preserves` conjunct).

  On the extended reals, for finite logits: the block walk ends at the row's maximum and at Σ exp (x − max),
  Σ exp (x − max)² (induction over the blocks); (max + log Σ) − x_label is the negated log-softmax at the label; the largest
  probability is exp (0) / Σ, the probabilities sum to Σ / Σ = 1 and their squares to Σ₂ / Σ²; so both programs put the same
  numbers into one closing formula. A label outside the row makes both programs read the NaN pattern, which is −∞ here, and
  both rows' values are +∞. The kernel's side is read off its frame run: the body's stores as functions of what it loaded,
  the carried columns by induction over the grid points, the result blocks tiled into the result arrays, the means by the
  host operations after the region. The reference's side is its operations' composition read at an index.
-/
import proofs.«431235_j43164421325263_3_alg».proof.Defs
import proofs.«431235_j43164421325263_3_alg».proof.Proof.Gen.Kernel
import proofs.«431235_j43164421325263_3_alg».proof.Proof.Gen.Kernel.Frame
import proofs.«431235_j43164421325263_3_alg».proof.Proof.Gen.KernelIdeal
import proofs.«431235_j43164421325263_3_alg».proof.Proof.Gen.KernelIdeal.Frame
import proofs.«431235_j43164421325263_3_alg».proof.Proof.Gen.ReferenceIdeal
import proofs.«431235_j43164421325263_3_alg».proof.Proof.Gen.Pre_finite_inputs
import proofs.«431235_j43164421325263_3_alg».proof.Proof.Bridge
import proofs.«431235_j43164421325263_3_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.ValueIdx Cert.Loss

/-- The reference runs and leaves its arguments unchanged: its run with the results dropped. -/
theorem frame_ri : Cert.frame_ReferenceIdeal := fun m ρ _ =>
  (θ_run Cert.ReferenceIdeal.defs _ _).mono (fun _ h c => ⟨(h c).1, (h c).2.2.2.2⟩)
    (Cert.ReferenceIdeal.RunH.run (F := Ideal) m ρ)

/-- The one rewrite of the ideal pass: the running maximum's finite starting value is named −∞. -/
theorem preserves : Cert.preserves_Kernel_KernelIdeal :=
  IdealRules.named_const.statement Cert.KernelIdeal.κ "neg_big" .f32 0xFF333332#32 ⊥ rfl

/-- On the extended reals, from memories agreeing on the logits and the labels, both programs end with the logits, the mean
    negative log-likelihood and the mean standard deviation — the same three values, row by row. -/
theorem algebraic : Cert.algebraic_KernelIdeal_ReferenceIdeal := by
  intro m ρ m' ρ' hpre hagree
  refine ⟨fun c => m ((c.tc : Thread _ _).loc Cert.KernelIdeal.main_arg0),
    fun c _ => meanRows (Cert.KernelIdeal.Final.nllRow m c),
    fun c _ => meanRows (Cert.KernelIdeal.Final.stdRow m c),
    Cert.KernelIdeal.RunValue.run m ρ, ?_⟩
  refine (θ_run Cert.ReferenceIdeal.defs _ _).mono (fun r h c => ?_) (Cert.ReferenceIdeal.RunH.run (F := Ideal) m' ρ')
  have hL : IsReal (m ((c.tc : Thread _ _).loc Cert.KernelIdeal.main_arg0)) := Cert.Finite.isReal_of_fn _ _ (hpre c)
  obtain ⟨h0, h6, h28, h0', h1'⟩ := h c
  refine ⟨h0.trans (hagree c).1, ?_, ?_, h0', h1'⟩
  · rw [h6, (hagree c).1, (hagree c).2]
    funext i
    rw [Cert.RefSide.loss_eq]
    refine congrArg meanRows (funext fun r => ?_)
    unfold Cert.KernelIdeal.Final.nllRow Cert.KernelIdeal.Inv.logits Cert.KernelIdeal.Inv.lblLogit
    rw [Cert.KernelIdeal.Gen.V_main_arg0, Cert.KernelIdeal.HostSide.xlbl_eq]
    exact (Cert.Bridge.row_nll _ _ hL r).symm
  · rw [h28, (hagree c).1]
    funext i
    rw [Cert.RefSide.stdmean_eq]
    refine congrArg meanRows (funext fun r => ?_)
    unfold Cert.KernelIdeal.Final.stdRow Cert.KernelIdeal.Inv.logits
    rw [Cert.KernelIdeal.Gen.V_main_arg0]
    exact (std_eq _ (Cert.Bridge.isReal_row hL r)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri, preserves, algebraic⟩

end Cert.Proof

end
